-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S8192x2048 : Shape := ⟨2, ![8192, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S1x8192 : Shape := ⟨2, ![1, 8192]⟩
abbrev S1024x2048 : Shape := ⟨2, ![1024, 2048]⟩
abbrev S1024x1 : Shape := ⟨2, ![1024, 1]⟩
abbrev S1x1024 : Shape := ⟨2, ![1, 1024]⟩
abbrev S2048x1024 : Shape := ⟨2, ![2048, 1024]⟩
abbrev S1024x1024 : Shape := ⟨2, ![1024, 1024]⟩
abbrev S1024 : Shape := ⟨1, ![1024]⟩
abbrev S8192 : Shape := ⟨1, ![8192]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x1, .f32⟩
  | .local _ .vmem, ⟨5, _⟩ => ⟨S512x1, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1024x1, .f32⟩
  | .local _ .vmem, ⟨15, _⟩ => ⟨S1024x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S512x1_S512x1_0_0 : ∀ a, (![0, 0] : Fin 2 → Nat) a + S512x1.size a ≤ S512x1.size a
  h_S512x1 : 0 < S512x1.numel
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.K.Pay.lean ====
/- Region 0 stores two payloads: the normalized rows rounded to the storage format, and the
   row sums of the squares of the rounded rows read back in the wider format. The two names below stand for
   them in everything that follows. -/
import proofs.«129088_j10788957848170_1_alg».proof.Proof.Gen.Kernel.Skeleton

noncomputable section

namespace Cert.Kernel.Gen

open Idealize.ShloMosaic Idealize.SL.Sem

variable {F : FTy → Type} [FloatOps F]

/-- What region 0 stores in the normalized-rows block: a function of the block of input rows. -/
abbrev payXn (v0 : Vec F S512x2048 .f32) : FVec F S512x2048 .bf16 := k0_pay1 v0
/-- What region 0 stores in the squared-norms column: a function of the block of input rows. -/
abbrev paySq (v0 : Vec F S512x2048 .f32) : FVec F S512x1 .f32 := k0_pay2 v0

end Cert.Kernel.Gen

end
-- ==== Proof.K.R0Body.lean ====
/- Region 0 (row normalization), one grid point at a time: each point reads one block of 512 rows,
   and leaves in its two output blocks the normalized rows and the column of their squared norms,
   both functions of that input block alone. -/
import proofs.«129088_j10788957848170_1_alg».proof.Proof.K.Pay
import proofs.«129088_j10788957848170_1_alg».proof.Proof.Gen.Kernel.Launch
import proofs.«129088_j10788957848170_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point, so its staging buffer holds the array's block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x2048 := Rect.unit (s := S512x2048) ![0, 0] S512x2048.size inb_S512x2048_S512x2048_0_0
abbrev r0_s : Rect S512x1 := Rect.unit (s := S512x1) ![0, 0] S512x1.size inb_S512x1_S512x1_0_0

/-- The normalized-rows block after the body: its one store, of the whole block. -/
def out0_1 (x0 : Vec F S512x2048 .f32) : Vec F S512x2048 .bf16 :=
  View.canon [⟨r0_x, payXn (View.ld x0 r0_x)⟩]
/-- The squared-norms column block after the body: its one store, of the whole block. -/
def out0_2 (x0 : Vec F S512x2048 .f32) : Vec F S512x1 .f32 :=
  View.canon [⟨r0_s, paySq (View.ld x0 r0_x)⟩]

theorem cover0_1 (p0 : Vec F S512x2048 .bf16) (y : S512x2048.Idx) :
    ∃ pc ∈ ([⟨r0_x, p0⟩] : List (View.Piece (Elt F) S512x2048 .bf16)), y ∈ pc.1.set :=
  View.cover_of_tiled [⟨r0_x, p0⟩] S512x2048.size (by rfl) y
theorem cover0_2 (p0 : Vec F S512x1 .f32) (y : S512x1.Idx) :
    ∃ pc ∈ ([⟨r0_s, p0⟩] : List (View.Piece (Elt F) S512x1 .f32)), y ∈ pc.1.set :=
  View.cover_of_tiled [⟨r0_s, p0⟩] S512x1.size (by rfl) y

set_option maxHeartbeats 1000000 in
/-- The body on whole staging buffers: the input block is left as read, each output block ends at its store's payload. -/
theorem sound_kernel0 (c : Dev nD) (E : Set ℕ) (i : grid0.Coords) (arg1 : Memref sig .tc .vmem S512x2048 .f32) (harg1 : arg1.IsWhole)
    (arg2 : Memref sig .tc .vmem S512x2048 .bf16) (harg2 : arg2.IsWhole) (arg3 : Memref sig .tc .vmem S512x1 .f32) (harg3 : arg3.IsWhole)
    (x0 : Vec F S512x2048 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- Region 0's proof data at entry contents `V`: the input block stays; each output block is its payload of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.R1Run.lean ====
/- Region 1 (pairwise sums), the body on whole staging buffers in its two control cases: at the first
   column block of a row block the accumulator column is zeroed first and then added to; at every later
   column block it is added to as the point before left it. -/
import proofs.«129088_j10788957848170_1_alg».proof.Proof.Gen.Kernel.Launch
import proofs.«129088_j10788957848170_1_alg».proof.Proof.Gen.Kernel.Skeleton
import proofs.«129088_j10788957848170_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "the column-block coordinate is zero". -/
abbrev cond1_0 (i : grid1.Coords) : Prop := (Scalar.cmpi .ne (Scalar.extui (Scalar.cmpi .eq (BitVec.ofNat 32 (i 1).val) 0#32)) 0#32) = 1#1
/-- It holds exactly at the points whose position is a multiple of 8 (the row-major grid is 8 by 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the accumulator window, through which its contents are stated. -/
abbrev VO1_4 : View sig .tc .vmem S1024x1 .f32 := (Memref.whole cc1_stg4_0 : Memref sig .tc .vmem S1024x1 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)

set_option maxHeartbeats 1000000 in
/-- The first column block of a row block: the accumulator buffer may hold anything; it ends with the
    pieces the run finds written (the zeroing, then the sum over it). -/
noncomputable def kernelRun1_A (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) :
    { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pairwise_kernel i arg2 harg2 arg3 harg3 arg4 harg4 arg5 harg5 arg6 harg6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- A later column block: the accumulator buffer holds the running contents `xo4`; it ends with the
    pieces the run finds written (the sum over them). -/
noncomputable def kernelRun1_B (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) :
    { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pairwise_kernel i arg2 harg2 arg3 harg3 arg4 harg4 arg5 harg5 arg6 harg6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Gen

end
-- ==== Proof.K.R1Body.lean ====
/- Region 1 (pairwise sums) point by point. The grid is 8 row blocks by 8 column blocks, walked row-major;
   the accumulator column of a row block is zeroed at its first column block, added to at each later one,
   and written back after the last. The two input windows on the normalized rows share one array, so each
   holds half of it. -/
import proofs.«129088_j10788957848170_1_alg».proof.Proof.K.R1Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem cover1_A_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) (y : S1024x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1024x1.size (by sl_kernel_rfl) y

/-- What the first column block of a row block leaves in the accumulator buffer. -/
def out1_A_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) : Vec F S1024x1 .f32 :=
  VO1_4.read (Elt F) (VO1_4.writes (Elt F) VO1_4.junk (kernelRun1_A c i arg2 harg2 arg3 harg3 arg4 harg4 arg5 harg5 arg6 harg6 hc0 x0 x1 x2 x3).1)

theorem cover1_B_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) (y : S1024x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1024x1.size (by sl_kernel_rfl) y

/-- What a later column block leaves in the accumulator buffer, over the running contents `xo4`. -/
def out1_B_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) : Vec F S1024x1 .f32 :=
  VO1_4.read (Elt F) (VO1_4.writes (Elt F) VO1_4.junk (kernelRun1_B c i arg2 harg2 arg3 harg3 arg4 harg4 arg5 harg5 arg6 harg6 hc0 x0 x1 x2 x3 xo4).1)

/-- THE ACCUMULATION: what the accumulator buffer holds after the body at position `n` of the row-major walk. -/
def outsAt1 (c : Dev nD) : (n : ℕ) → n < cfg1.N → Vec F S1024x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 8 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- Region 1's proof data at entry contents `V`: the input blocks stay; the accumulator block is the accumulation;
    the two windows on the normalized rows hold one half of that array each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later column block the accumulator buffer holds what the point before left: it was not written back between. -/
theorem before1_4_B (c : Dev nD) (t : Fin cfg1.N) (h0 : ¬t.val % 8 = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.Vals.lean ====
/- The contents of the core's buffers at each boundary of the program (launch; after the row normalization;
   after the reshape of the squared norms to a row; after the pairwise sums; after the closing host operations),
   with what each region leaves named from its proof data, and the proof data of both regions as one family. -/
import proofs.«129088_j10788957848170_1_alg».proof.Proof.K.R0Body
import proofs.«129088_j10788957848170_1_alg».proof.Proof.K.R1Body
import proofs.«129088_j10788957848170_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers at launch, read at the TensorCore's references: what region 0 is entered with. -/
abbrev E0 : (c : Dev nD) → (b : Ref sig .tc) → Buf (Elt F) ((c : Thread nD τ).loc b) := fun c b => m ((c : Thread nD τ).loc b)

/-- What region 0 leaves in the normalized-rows array and in the squared-norms column. -/
def X1 (c : Dev nD) : Buf (Elt F) ((c : Thread nD τ).loc main_v0_0) := (dat0 (E0 m) c).arrAt 1 cfg0.N
def X2 (c : Dev nD) : Buf (Elt F) ((c : Thread nD τ).loc main_v0_1) := (dat0 (E0 m) c).arrAt 2 cfg0.N

/-- The buffers after region 0, and after the reshape that follows it. -/
abbrev Y1 (c : Dev nD) : Valuation τ sig (Elt F) := Function.update (Function.update (V0 m c) main_v0_0 (X1 m c)) main_v0_1 (X2 m c)
abbrev Y2 (c : Dev nD) : Valuation τ sig (Elt F) := StableHlo.after hostOps1 (Y1 m c)
/-- The same read at the TensorCore's references: what region 1 is entered with. -/
abbrev E2 : (c : Dev nD) → (b : Ref sig .tc) → Buf (Elt F) ((c : Thread nD τ).loc b) := fun c b => Y2 m c b

/-- What region 1 leaves in the row-sums column. -/
def X3 (c : Dev nD) : Buf (Elt F) ((c : Thread nD τ).loc main_v2) := (dat1 (E2 m) c).arrAt 4 cfg1.N

/-- What the regions leave, as the family of unknowns the conditional frame is stated over: after item 0 the two
    arrays region 0 writes, after item 2 the array region 1 writes; elsewhere the launch contents (never read). -/
def outs : Outs (F := F) := fun J r c => match J with
  | 1 => (Function.update (Function.update (fun b : Ref sig .tc => E0 m c b) main_v0_0 (X1 m c)) main_v0_1 (X2 m c)) r
  | _ => (Function.update (fun b : Ref sig .tc => E0 m c b) main_v2 (X3 m c)) r

theorem outs_1_v0_0 (c : Dev nD) : outs m 1 main_v0_0 c = X1 m c := by
  show (Function.update (Function.update (fun b : Ref sig .tc => E0 m c b) main_v0_0 (X1 m c)) main_v0_1 (X2 m c)) main_v0_0 = _
  rw [Function.update_of_ne (by decide), Function.update_self]
theorem outs_1_v0_1 (c : Dev nD) : outs m 1 main_v0_1 c = X2 m c := by
  show (Function.update (Function.update (fun b : Ref sig .tc => E0 m c b) main_v0_0 (X1 m c)) main_v0_1 (X2 m c)) main_v0_1 = _
  rw [Function.update_self]
theorem outs_3_v2 (c : Dev nD) : outs m 3 main_v2 c = X3 m c := by
  show (Function.update (fun b : Ref sig .tc => E0 m c b) main_v2 (X3 m c)) main_v2 = _
  rw [Function.update_self]

/-- The conditional frame's boundary contents at these unknowns are the ones named above. -/
theorem V1_eq (c : Dev nD) : V1 m (outs m) c = Y1 m c := by
  unfold V1; rw [outs_1_v0_0, outs_1_v0_1]
theorem V2_eq (c : Dev nD) : V2 m (outs m) c = Y2 m c := by
  unfold V2; rw [V1_eq]
/-- The buffers after region 1 and at the end. -/
abbrev Y3 (c : Dev nD) : Valuation τ sig (Elt F) := Function.update (Y2 m c) main_v2 (X3 m c)
abbrev Y4 (c : Dev nD) : Valuation τ sig (Elt F) := StableHlo.after hostOps2 (Y3 m c)
theorem V3_eq (c : Dev nD) : V3 m (outs m) c = Y3 m c := by
  unfold V3; rw [V2_eq, outs_3_v2]
theorem V4_eq (c : Dev nD) : V4 m (outs m) c = Y4 m c := by
  unfold V4; rw [V3_eq]

/-- Both regions' proof data, each at the contents its region is entered with. -/
def pdats : (p : Fin 2) → (c : Dev nD) → Dat τ (Elt F) Unit ℕ (UR sig nD τ) ℕ (cfgs p) c
  | ⟨0, _⟩ => fun c => dat0 (E0 m) c
  | ⟨1, _⟩ => fun c => dat1 (E2 m) c

end Cert.Kernel.Gen

end
-- ==== Proof.K.Segs.lean ====
/- The two kernel regions as steps between the program's boundaries. Region 0 is entered with every buffer at its
   launch contents and left with its two output arrays at what its blocks wrote. Region 1 reads the normalized
   rows through two windows on ONE array: at entry that array's ownership is cut in two halves, one per window,
   and at exit the halves (the array unchanged, both windows only read) are joined again. -/
import proofs.«129088_j10788957848170_1_alg».proof.Proof.K.Vals

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state, and that it owes nothing. -/
abbrev R (c : Dev nD) : sProp 𝕄 := iprop((∃ r, prngReg c r) ∗ ∃ W, owes (c : Thread nD τ) (0 : CellTallies nD τ sig Unit) W)

/-! ## Region 1's arrays, one by one -/

section Shared
variable (V : (c : Dev nD) → (b : Ref sig .tc) → Buf (Elt F) ((c : Thread nD τ).loc b))

/-- The four distinct buffers behind region 1's five windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_0) ↦{fullShare} W main_v0_0) ∗ (((c : Thread nD τ).loc main_v0_1) ↦{fullShare} W main_v0_1)
          ∗ (((c : Thread nD τ).loc main_v1) ↦{fullShare} W main_v1) ∗ (((c : Thread nD τ).loc main_v2) ↦{fullShare} W main_v2)) := by
  unfold Pipeline.arrBufs
  exact bigSep_eq_bigSepL_of_eq [main_v0_0, main_v0_1, main_v1, main_v2] (by decide) (by decide) _

/-- Region 1's windowed arrays at contents `G`, window by window: the two row windows hold a half of the normalized rows each. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare} G 2) ∗ (((c : Thread nD τ).loc main_v1) ↦{fullShare} G 3)
          ∗ (((c : Thread nD τ).loc main_v2) ↦{fullShare} G 4)) := by
  unfold Dat.arrays
  rw [bigSep_W1, (arr_whole1 0).set_eq_univ, (arr_whole1 2).set_eq_univ, (arr_whole1 3).set_eq_univ, (arr_whole1 4).set_eq_univ]
  rfl

/-- ENTRY of region 1: out of every unscoped buffer at `V c`, the five windows' arrays at their entry contents — the
    normalized rows' ownership cut in two halves, one for each window on it — and the buffers no window stages. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs c (V c) : sProp 𝕄) = iprop(Pipeline.arrBufs (Ix := Unit) (Name := ℕ) (U := UR sig nD τ) (Lvl := ℕ) spec1 c (V c) ∗ Pipeline.unscopedRest (Ix := Unit) (Name := ℕ) (U := UR sig nD τ) (Lvl := ℕ) spec1 c (V c)) :=
    Pipeline.unscopedBufs_split₀ (Ix := Unit) (Name := ℕ) (U := UR sig nD τ) (Lvl := ℕ) cfgs 1 winFacts₀1.arr_unscoped c (V c)
  rw [hs, arrBufs1_eq, arrays1_eq]
  have hcut : ((((c : Thread nD τ).loc main_v0_0) ↦{fullShare} V c main_v0_0 : sProp 𝕄))
      ⊢ iprop((((c : Thread nD τ).loc main_v0_0) ↦{fullShare.left} V c main_v0_0) ∗ (((c : Thread nD τ).loc main_v0_0) ↦{fullShare.right} V c main_v0_0)) :=
    (pointsTo_share (PosShare.mem_left_op_right fullShare)).1
  iintro ⟨⟨H0, H1, H3, H4⟩, Hrest⟩
  ihave H0' := hcut $$ H0
  icases H0' with ⟨H0l, H0r⟩
  isplitr [Hrest]
  · isplitl [H0l]; · iexact H0l
    isplitl [H0r]; · iexact H0r
    isplitl [H1]; · iexact H1
    isplitl [H3]; · iexact H3
    iexact H4
  iexact Hrest

/-- EXIT of region 1: the two halves of the normalized rows (unchanged: both windows on them only read) joined again, the
    other inputs as entered, the output column at what the write-backs left, and the buffers no window stages, make every
    unscoped buffer at any `V'` that has the output column there and agrees with `V c` elsewhere. -/
theorem exit1 (c : Dev nD) (V' : (b : Ref sig .tc) → Buf (Elt F) ((c : Thread nD τ).loc b))
    (h2 : V' main_v2 = (dat1 V c).arrAt 4 cfg1.N) (hrest : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have hs : (unscopedBufs c V' : sProp 𝕄) = iprop(Pipeline.arrBufs (Ix := Unit) (Name := ℕ) (U := UR sig nD τ) (Lvl := ℕ) spec1 c V' ∗ Pipeline.unscopedRest (Ix := Unit) (Name := ℕ) (U := UR sig nD τ) (Lvl := ℕ) spec1 c V') :=
    Pipeline.unscopedBufs_split₀ (Ix := Unit) (Name := ℕ) (U := UR sig nD τ) (Lvl := ℕ) cfgs 1 winFacts₀1.arr_unscoped c V'
  rw [hs, arrBufs1_eq, arrays1_eq]
  have e0 : (dat1 V c).arrAt 0 cfg1.N = V' main_v0_0 := ((dat1 V c).arrAt_in 0 rfl _).trans ((A_eq1 V c 0).trans (hrest main_v0_0 (by decide)).symm)
  have e1 : (dat1 V c).arrAt 1 cfg1.N = V' main_v0_0 := ((dat1 V c).arrAt_in 1 rfl _).trans ((A_eq1 V c 1).trans (hrest main_v0_0 (by decide)).symm)
  have e2 : (dat1 V c).arrAt 2 cfg1.N = V' main_v0_1 := ((dat1 V c).arrAt_in 2 rfl _).trans ((A_eq1 V c 2).trans (hrest main_v0_1 (by decide)).symm)
  have e3 : (dat1 V c).arrAt 3 cfg1.N = V' main_v1 := ((dat1 V c).arrAt_in 3 rfl _).trans ((A_eq1 V c 3).trans (hrest main_v1 (by decide)).symm)
  have hr : (Pipeline.unscopedRest (Ix := Unit) (Name := ℕ) (U := UR sig nD τ) (Lvl := ℕ) spec1 c (V c) : sProp 𝕄) = Pipeline.unscopedRest (Ix := Unit) (Name := ℕ) (U := UR sig nD τ) (Lvl := ℕ) spec1 c V' := by
    unfold Pipeline.unscopedRest
    exact bigSep_congr fun b hb => by
      rw [hrest b (fun e => (Finset.mem_sdiff.mp hb).2 (e ▸ Finset.mem_image.mpr ⟨4, Finset.mem_univ _, rfl⟩))]
  rw [hr]
  dsimp only
  rw [e0, e1, e2, e3, ← h2]
  have hjoin : iprop((((c : Thread nD τ).loc main_v0_0) ↦{fullShare.left} V' main_v0_0) ∗ (((c : Thread nD τ).loc main_v0_0) ↦{fullShare.right} V' main_v0_0))
      ⊢ ((((c : Thread nD τ).loc main_v0_0) ↦{fullShare} V' main_v0_0 : sProp 𝕄)) :=
    (pointsTo_share (PosShare.mem_left_op_right fullShare)).2
  iintro ⟨⟨H0l, H0r, H1, H3, H4⟩, Hrest⟩
  isplitr [Hrest]
  · isplitl [H0l H0r]
    · iapply hjoin
      isplitl [H0l]; · iexact H0l
      iexact H0r
    isplitl [H1]; · iexact H1
    isplitl [H3]; · iexact H3
    iexact H4
  iexact Hrest

end Shared

end Cert.Kernel.Gen

end
-- ==== Proof.K.Regs.lean ====
/- The two kernel regions as steps of the program: each is entered from "every unscoped buffer at the boundary's
   contents, the generator register at some state, nothing owed" and left at the same with the next boundary's
   contents. -/
import proofs.«129088_j10788957848170_1_alg».proof.Proof.K.Segs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After region 0 its arrays hold what its proof data computes (the input as entered, the two outputs at what the
    blocks wrote), and every other buffer what it held at entry. -/
theorem hF0 (c : Dev nD) (w : Fin cfg0.W) : (dat0 (E0 m) c).arrAt w cfg0.N = (fun b : Ref sig .tc => Y1 m c b) (Pipeline.arrRef spec0 w) := by
  match w with
  | ⟨0, _⟩ => exact ((dat0 (E0 m) c).arrAt_in 0 rfl _).trans (by
      show E0 m c main_arg0 = Y1 m c main_arg0
      simp only [Y1, Function.update_of_ne (StableHlo.devRef_ne_of_ne (by decide) : (Proc.devRef .tc main_arg0 : DevRef τ sig) ≠ Proc.devRef .tc main_v0_1),
        Function.update_of_ne (StableHlo.devRef_ne_of_ne (by decide) : (Proc.devRef .tc main_arg0 : DevRef τ sig) ≠ Proc.devRef .tc main_v0_0)])
  | ⟨1, _⟩ => exact (by
      show X1 m c = Y1 m c main_v0_0
      simp only [Y1, Function.update_of_ne (StableHlo.devRef_ne_of_ne (by decide) : (Proc.devRef .tc main_v0_0 : DevRef τ sig) ≠ Proc.devRef .tc main_v0_1), Function.update_self])
  | ⟨2, _⟩ => exact (by
      show X2 m c = Y1 m c main_v0_1
      simp only [Y1, Function.update_self])
theorem hrest0 (c : Dev nD) : ∀ b, b ∉ Finset.univ.image (Pipeline.arrRef spec0) → (fun b : Ref sig .tc => Y1 m c b) b = E0 m c b := fun b hb => by
  have h1 : b ≠ main_v0_0 := fun e => hb (e ▸ Finset.mem_image.mpr ⟨1, Finset.mem_univ _, rfl⟩)
  have h2 : b ≠ main_v0_1 := fun e => hb (e ▸ Finset.mem_image.mpr ⟨2, Finset.mem_univ _, rfl⟩)
  show Y1 m c b = _
  simp only [Y1, Function.update_of_ne (StableHlo.devRef_ne_of_ne h2 : (Proc.devRef .tc b : DevRef τ sig) ≠ Proc.devRef .tc main_v0_1),
    Function.update_of_ne (StableHlo.devRef_ne_of_ne h1 : (Proc.devRef .tc b : DevRef τ sig) ≠ Proc.devRef .tc main_v0_0)]

set_option backward.isDefEq.respectTransparency.types false in
/-- REGION 0 (the row normalization). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Y1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [show (unscopedBufs c (E0 m c) : sProp 𝕄) = StableHlo.held (c : Thread nD τ) (Pipeline.ucRefs τ sig) (V0 m c) from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => Y1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ≠ main_v2 → (fun b : Ref sig .tc => Y3 m c b) b = E2 m c b := fun b hb => by
  show Y3 m c b = Y2 m c b
  simp only [Y3, Function.update_of_ne (StableHlo.devRef_ne_of_ne hb : (Proc.devRef .tc b : DevRef τ sig) ≠ Proc.devRef .tc main_v2)]
theorem h2_1 (c : Dev nD) : (fun b : Ref sig .tc => Y3 m c b) main_v2 = (dat1 (E2 m) c).arrAt 4 cfg1.N := by
  show Y3 m c main_v2 = X3 m c
  simp only [Y3, Function.update_self]

set_option backward.isDefEq.respectTransparency.types false in
/-- REGION 1 (the pairwise sums). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Y2 m c) ∗ R c)
  post c := iprop(StableHlo.held (c : Thread nD τ) (Pipeline.ucRefs τ sig) (Y3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest (Ix := Unit) (Name := ℕ) (U := UR sig nD τ) (Lvl := ℕ) spec1 c (E2 m c)) := entry1 (E2 m) c
    rw [show (unscopedBufs c (E2 m c) : sProp 𝕄) = StableHlo.held (c : Thread nD τ) (Pipeline.ucRefs τ sig) (Y2 m c) from Pipeline.unscopedBufs_held c (Y2 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E2 m c))
        ⊢ (unscopedBufs c (fun b : Ref sig .tc => Y3 m c b) : sProp 𝕄) := exit1 (E2 m) c (fun b : Ref sig .tc => Y3 m c b) (h2_1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Frame.lean ====
/- The whole program: launched from any memory with every counter at zero, every weakly fair execution runs the
   row normalization, the reshape, the pairwise sums and the closing host operations to the end, faults nowhere,
   leaves the input array as launched, and leaves the result buffer at the closing operations' value of what the
   two regions wrote. -/
import proofs.«129088_j10788957848170_1_alg».proof.Proof.K.Regs
import proofs.«129088_j10788957848170_1_alg».proof.Proof.K.RunCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result named: the final memory holds the last boundary's contents at the result buffer and the
    launch contents at the argument. -/
theorem run_main : θ_run defs (onTc (τ := τ) (main (F := F))) ⟨m, fun _ => 0, ρ⟩ (fun r => ∀ c : Dev nD,
      r.2.mem ((c.tc : Thread nD τ).loc main_v7) = Y4 m c main_v7
      ∧ r.2.mem ((c.tc : Thread nD τ).loc main_arg0) = m ((c.tc : Thread nD τ).loc main_arg0)) := by
  have h := run_cond m (emb₁ : Emb (URounds (GSem nD τ sig) Unit) 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
  refine (θ_run defs _ _).mono (fun r hr c => ⟨?_, (hr c).2⟩) h
  rw [(hr c).1, V4_eq]

/-- THE FRAME: the program runs to the end and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Gen

end
-- ==== Proof.KI.Pay.lean ====
/- Region 0 stores two payloads: the normalized rows rounded to the storage format, and the
   row sums of their squares. The two names below stand for them in everything that follows. -/
import proofs.«129088_j10788957848170_1_alg».proof.Proof.Gen.KernelIdeal.Skeleton

noncomputable section

namespace Cert.KernelIdeal.Gen

open Idealize.ShloMosaic Idealize.SL.Sem

variable {F : FTy → Type} [FloatOps F]

/-- What region 0 stores in the normalized-rows block: a function of the block of input rows. -/
abbrev payXn (v0 : Vec F S512x2048 .f32) : FVec F S512x2048 .bf16 := k0_pay2 v0
/-- What region 0 stores in the squared-norms column: a function of the block of input rows. -/
abbrev paySq (v0 : Vec F S512x2048 .f32) : FVec F S512x1 .f32 := k0_pay3 v0

end Cert.KernelIdeal.Gen

end
-- ==== Proof.KI.R0Body.lean ====
/- Region 0 (row normalization), one grid point at a time: each point reads one block of 512 rows,
   and leaves in its two output blocks the normalized rows and the column of their squared norms,
   both functions of that input block alone. -/
import proofs.«129088_j10788957848170_1_alg».proof.Proof.KI.Pay
import proofs.«129088_j10788957848170_1_alg».proof.Proof.Gen.KernelIdeal.Launch
import proofs.«129088_j10788957848170_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point, so its staging buffer holds the array's block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x2048 := Rect.unit (s := S512x2048) ![0, 0] S512x2048.size inb_S512x2048_S512x2048_0_0
abbrev r0_s : Rect S512x1 := Rect.unit (s := S512x1) ![0, 0] S512x1.size inb_S512x1_S512x1_0_0

/-- The normalized-rows block after the body: its one store, of the whole block. -/
def out0_1 (x0 : Vec F S512x2048 .f32) : Vec F S512x2048 .bf16 :=
  View.canon [⟨r0_x, payXn (View.ld x0 r0_x)⟩]
/-- The squared-norms column block after the body: its one store, of the whole block. -/
def out0_2 (x0 : Vec F S512x2048 .f32) : Vec F S512x1 .f32 :=
  View.canon [⟨r0_s, paySq (View.ld x0 r0_x)⟩]

theorem cover0_1 (p0 : Vec F S512x2048 .bf16) (y : S512x2048.Idx) :
    ∃ pc ∈ ([⟨r0_x, p0⟩] : List (View.Piece (Elt F) S512x2048 .bf16)), y ∈ pc.1.set :=
  View.cover_of_tiled [⟨r0_x, p0⟩] S512x2048.size (by rfl) y
theorem cover0_2 (p0 : Vec F S512x1 .f32) (y : S512x1.Idx) :
    ∃ pc ∈ ([⟨r0_s, p0⟩] : List (View.Piece (Elt F) S512x1 .f32)), y ∈ pc.1.set :=
  View.cover_of_tiled [⟨r0_s, p0⟩] S512x1.size (by rfl) y

set_option maxHeartbeats 1000000 in
/-- The body on whole staging buffers: the input block is left as read, each output block ends at its store's payload. -/
theorem sound_kernel0 (c : Dev nD) (E : Set ℕ) (i : grid0.Coords) (arg1 : Memref sig .tc .vmem S512x2048 .f32) (harg1 : arg1.IsWhole)
    (arg2 : Memref sig .tc .vmem S512x2048 .bf16) (harg2 : arg2.IsWhole) (arg3 : Memref sig .tc .vmem S512x1 .f32) (harg3 : arg3.IsWhole)
    (x0 : Vec F S512x2048 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- Region 0's proof data at entry contents `V`: the input block stays; each output block is its payload of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.R1Run.lean ====
/- Region 1 (pairwise sums), the body on whole staging buffers in its two control cases: at the first
   column block of a row block the accumulator column is zeroed first and then added to; at every later
   column block it is added to as the point before left it. -/
import proofs.«129088_j10788957848170_1_alg».proof.Proof.Gen.KernelIdeal.Launch
import proofs.«129088_j10788957848170_1_alg».proof.Proof.Gen.KernelIdeal.Skeleton
import proofs.«129088_j10788957848170_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "the column-block coordinate is zero". -/
abbrev cond1_0 (i : grid1.Coords) : Prop := (Scalar.cmpi .ne (Scalar.extui (Scalar.cmpi .eq (BitVec.ofNat 32 (i 1).val) 0#32)) 0#32) = 1#1
/-- It holds exactly at the points whose position is a multiple of 8 (the row-major grid is 8 by 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the accumulator window, through which its contents are stated. -/
abbrev VO1_4 : View sig .tc .vmem S1024x1 .f32 := (Memref.whole cc1_stg4_0 : Memref sig .tc .vmem S1024x1 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)

set_option maxHeartbeats 1000000 in
/-- The first column block of a row block: the accumulator buffer may hold anything; it ends with the
    pieces the run finds written (the zeroing, then the sum over it). -/
noncomputable def kernelRun1_A (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) :
    { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pairwise_kernel i arg2 harg2 arg3 harg3 arg4 harg4 arg5 harg5 arg6 harg6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- A later column block: the accumulator buffer holds the running contents `xo4`; it ends with the
    pieces the run finds written (the sum over them). -/
noncomputable def kernelRun1_B (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) :
    { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pairwise_kernel i arg2 harg2 arg3 harg3 arg4 harg4 arg5 harg5 arg6 harg6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Gen

end
-- ==== Proof.KI.R1Body.lean ====
/- Region 1 (pairwise sums) point by point. The grid is 8 row blocks by 8 column blocks, walked row-major;
   the accumulator column of a row block is zeroed at its first column block, added to at each later one,
   and written back after the last. The two input windows on the normalized rows share one array, so each
   holds half of it. -/
import proofs.«129088_j10788957848170_1_alg».proof.Proof.KI.R1Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem cover1_A_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) (y : S1024x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1024x1.size (by sl_kernel_rfl) y

/-- What the first column block of a row block leaves in the accumulator buffer. -/
def out1_A_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) : Vec F S1024x1 .f32 :=
  VO1_4.read (Elt F) (VO1_4.writes (Elt F) VO1_4.junk (kernelRun1_A c i arg2 harg2 arg3 harg3 arg4 harg4 arg5 harg5 arg6 harg6 hc0 x0 x1 x2 x3).1)

theorem cover1_B_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) (y : S1024x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1024x1.size (by sl_kernel_rfl) y

/-- What a later column block leaves in the accumulator buffer, over the running contents `xo4`. -/
def out1_B_4 (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) : Vec F S1024x1 .f32 :=
  VO1_4.read (Elt F) (VO1_4.writes (Elt F) VO1_4.junk (kernelRun1_B c i arg2 harg2 arg3 harg3 arg4 harg4 arg5 harg5 arg6 harg6 hc0 x0 x1 x2 x3 xo4).1)

/-- THE ACCUMULATION: what the accumulator buffer holds after the body at position `n` of the row-major walk. -/
def outsAt1 (c : Dev nD) : (n : ℕ) → n < cfg1.N → Vec F S1024x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 8 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- Region 1's proof data at entry contents `V`: the input blocks stay; the accumulator block is the accumulation;
    the two windows on the normalized rows hold one half of that array each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later column block the accumulator buffer holds what the point before left: it was not written back between. -/
theorem before1_4_B (c : Dev nD) (t : Fin cfg1.N) (h0 : ¬t.val % 8 = 0) (d) :
    (dat1 V c).before 4 t d = outsAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 8 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Vals.lean ====
/- The contents of the core's buffers at each boundary of the program (launch; after the row normalization;
   after the reshape of the squared norms to a row; after the pairwise sums; after the closing host operations),
   with what each region leaves named from its proof data, and the proof data of both regions as one family. -/
import proofs.«129088_j10788957848170_1_alg».proof.Proof.KI.R0Body
import proofs.«129088_j10788957848170_1_alg».proof.Proof.KI.R1Body
import proofs.«129088_j10788957848170_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers at launch, read at the TensorCore's references: what region 0 is entered with. -/
abbrev E0 : (c : Dev nD) → (b : Ref sig .tc) → Buf (Elt F) ((c : Thread nD τ).loc b) := fun c b => m ((c : Thread nD τ).loc b)

/-- What region 0 leaves in the normalized-rows array and in the squared-norms column. -/
def X1 (c : Dev nD) : Buf (Elt F) ((c : Thread nD τ).loc main_v0_0) := (dat0 (E0 m) c).arrAt 1 cfg0.N
def X2 (c : Dev nD) : Buf (Elt F) ((c : Thread nD τ).loc main_v0_1) := (dat0 (E0 m) c).arrAt 2 cfg0.N

/-- The buffers after region 0, and after the reshape that follows it. -/
abbrev Y1 (c : Dev nD) : Valuation τ sig (Elt F) := Function.update (Function.update (V0 m c) main_v0_0 (X1 m c)) main_v0_1 (X2 m c)
abbrev Y2 (c : Dev nD) : Valuation τ sig (Elt F) := StableHlo.after hostOps1 (Y1 m c)
/-- The same read at the TensorCore's references: what region 1 is entered with. -/
abbrev E2 : (c : Dev nD) → (b : Ref sig .tc) → Buf (Elt F) ((c : Thread nD τ).loc b) := fun c b => Y2 m c b

/-- What region 1 leaves in the row-sums column. -/
def X3 (c : Dev nD) : Buf (Elt F) ((c : Thread nD τ).loc main_v2) := (dat1 (E2 m) c).arrAt 4 cfg1.N

/-- What the regions leave, as the family of unknowns the conditional frame is stated over: after item 0 the two
    arrays region 0 writes, after item 2 the array region 1 writes; elsewhere the launch contents (never read). -/
def outs : Outs (F := F) := fun J r c => match J with
  | 1 => (Function.update (Function.update (fun b : Ref sig .tc => E0 m c b) main_v0_0 (X1 m c)) main_v0_1 (X2 m c)) r
  | _ => (Function.update (fun b : Ref sig .tc => E0 m c b) main_v2 (X3 m c)) r

theorem outs_1_v0_0 (c : Dev nD) : outs m 1 main_v0_0 c = X1 m c := by
  show (Function.update (Function.update (fun b : Ref sig .tc => E0 m c b) main_v0_0 (X1 m c)) main_v0_1 (X2 m c)) main_v0_0 = _
  rw [Function.update_of_ne (by decide), Function.update_self]
theorem outs_1_v0_1 (c : Dev nD) : outs m 1 main_v0_1 c = X2 m c := by
  show (Function.update (Function.update (fun b : Ref sig .tc => E0 m c b) main_v0_0 (X1 m c)) main_v0_1 (X2 m c)) main_v0_1 = _
  rw [Function.update_self]
theorem outs_3_v2 (c : Dev nD) : outs m 3 main_v2 c = X3 m c := by
  show (Function.update (fun b : Ref sig .tc => E0 m c b) main_v2 (X3 m c)) main_v2 = _
  rw [Function.update_self]

/-- The conditional frame's boundary contents at these unknowns are the ones named above. -/
theorem V1_eq (c : Dev nD) : V1 m (outs m) c = Y1 m c := by
  unfold V1; rw [outs_1_v0_0, outs_1_v0_1]
theorem V2_eq (c : Dev nD) : V2 m (outs m) c = Y2 m c := by
  unfold V2; rw [V1_eq]
/-- The buffers after region 1 and at the end. -/
abbrev Y3 (c : Dev nD) : Valuation τ sig (Elt F) := Function.update (Y2 m c) main_v2 (X3 m c)
abbrev Y4 (c : Dev nD) : Valuation τ sig (Elt F) := StableHlo.after hostOps2 (Y3 m c)
theorem V3_eq (c : Dev nD) : V3 m (outs m) c = Y3 m c := by
  unfold V3; rw [V2_eq, outs_3_v2]
theorem V4_eq (c : Dev nD) : V4 m (outs m) c = Y4 m c := by
  unfold V4; rw [V3_eq]

/-- Both regions' proof data, each at the contents its region is entered with. -/
def pdats : (p : Fin 2) → (c : Dev nD) → Dat τ (Elt F) Unit ℕ (UR sig nD τ) ℕ (cfgs p) c
  | ⟨0, _⟩ => fun c => dat0 (E0 m) c
  | ⟨1, _⟩ => fun c => dat1 (E2 m) c

end Cert.KernelIdeal.Gen

end
-- ==== Proof.KI.Segs.lean ====
/- The two kernel regions as steps between the program's boundaries. Region 0 is entered with every buffer at its
   launch contents and left with its two output arrays at what its blocks wrote. Region 1 reads the normalized
   rows through two windows on ONE array: at entry that array's ownership is cut in two halves, one per window,
   and at exit the halves (the array unchanged, both windows only read) are joined again. -/
import proofs.«129088_j10788957848170_1_alg».proof.Proof.KI.Vals

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state, and that it owes nothing. -/
abbrev R (c : Dev nD) : sProp 𝕄 := iprop((∃ r, prngReg c r) ∗ ∃ W, owes (c : Thread nD τ) (0 : CellTallies nD τ sig Unit) W)

/-! ## Region 1's arrays, one by one -/

section Shared
variable (V : (c : Dev nD) → (b : Ref sig .tc) → Buf (Elt F) ((c : Thread nD τ).loc b))

/-- The four distinct buffers behind region 1's five windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_0) ↦{fullShare} W main_v0_0) ∗ (((c : Thread nD τ).loc main_v0_1) ↦{fullShare} W main_v0_1)
          ∗ (((c : Thread nD τ).loc main_v1) ↦{fullShare} W main_v1) ∗ (((c : Thread nD τ).loc main_v2) ↦{fullShare} W main_v2)) := by
  unfold Pipeline.arrBufs
  exact bigSep_eq_bigSepL_of_eq [main_v0_0, main_v0_1, main_v1, main_v2] (by decide) (by decide) _

/-- Region 1's windowed arrays at contents `G`, window by window: the two row windows hold a half of the normalized rows each. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare} G 2) ∗ (((c : Thread nD τ).loc main_v1) ↦{fullShare} G 3)
          ∗ (((c : Thread nD τ).loc main_v2) ↦{fullShare} G 4)) := by
  unfold Dat.arrays
  rw [bigSep_W1, (arr_whole1 0).set_eq_univ, (arr_whole1 2).set_eq_univ, (arr_whole1 3).set_eq_univ, (arr_whole1 4).set_eq_univ]
  rfl

/-- ENTRY of region 1: out of every unscoped buffer at `V c`, the five windows' arrays at their entry contents — the
    normalized rows' ownership cut in two halves, one for each window on it — and the buffers no window stages. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs c (V c) : sProp 𝕄) = iprop(Pipeline.arrBufs (Ix := Unit) (Name := ℕ) (U := UR sig nD τ) (Lvl := ℕ) spec1 c (V c) ∗ Pipeline.unscopedRest (Ix := Unit) (Name := ℕ) (U := UR sig nD τ) (Lvl := ℕ) spec1 c (V c)) :=
    Pipeline.unscopedBufs_split₀ (Ix := Unit) (Name := ℕ) (U := UR sig nD τ) (Lvl := ℕ) cfgs 1 winFacts₀1.arr_unscoped c (V c)
  rw [hs, arrBufs1_eq, arrays1_eq]
  have hcut : ((((c : Thread nD τ).loc main_v0_0) ↦{fullShare} V c main_v0_0 : sProp 𝕄))
      ⊢ iprop((((c : Thread nD τ).loc main_v0_0) ↦{fullShare.left} V c main_v0_0) ∗ (((c : Thread nD τ).loc main_v0_0) ↦{fullShare.right} V c main_v0_0)) :=
    (pointsTo_share (PosShare.mem_left_op_right fullShare)).1
  iintro ⟨⟨H0, H1, H3, H4⟩, Hrest⟩
  ihave H0' := hcut $$ H0
  icases H0' with ⟨H0l, H0r⟩
  isplitr [Hrest]
  · isplitl [H0l]; · iexact H0l
    isplitl [H0r]; · iexact H0r
    isplitl [H1]; · iexact H1
    isplitl [H3]; · iexact H3
    iexact H4
  iexact Hrest

/-- EXIT of region 1: the two halves of the normalized rows (unchanged: both windows on them only read) joined again, the
    other inputs as entered, the output column at what the write-backs left, and the buffers no window stages, make every
    unscoped buffer at any `V'` that has the output column there and agrees with `V c` elsewhere. -/
theorem exit1 (c : Dev nD) (V' : (b : Ref sig .tc) → Buf (Elt F) ((c : Thread nD τ).loc b))
    (h2 : V' main_v2 = (dat1 V c).arrAt 4 cfg1.N) (hrest : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have hs : (unscopedBufs c V' : sProp 𝕄) = iprop(Pipeline.arrBufs (Ix := Unit) (Name := ℕ) (U := UR sig nD τ) (Lvl := ℕ) spec1 c V' ∗ Pipeline.unscopedRest (Ix := Unit) (Name := ℕ) (U := UR sig nD τ) (Lvl := ℕ) spec1 c V') :=
    Pipeline.unscopedBufs_split₀ (Ix := Unit) (Name := ℕ) (U := UR sig nD τ) (Lvl := ℕ) cfgs 1 winFacts₀1.arr_unscoped c V'
  rw [hs, arrBufs1_eq, arrays1_eq]
  have e0 : (dat1 V c).arrAt 0 cfg1.N = V' main_v0_0 := ((dat1 V c).arrAt_in 0 rfl _).trans ((A_eq1 V c 0).trans (hrest main_v0_0 (by decide)).symm)
  have e1 : (dat1 V c).arrAt 1 cfg1.N = V' main_v0_0 := ((dat1 V c).arrAt_in 1 rfl _).trans ((A_eq1 V c 1).trans (hrest main_v0_0 (by decide)).symm)
  have e2 : (dat1 V c).arrAt 2 cfg1.N = V' main_v0_1 := ((dat1 V c).arrAt_in 2 rfl _).trans ((A_eq1 V c 2).trans (hrest main_v0_1 (by decide)).symm)
  have e3 : (dat1 V c).arrAt 3 cfg1.N = V' main_v1 := ((dat1 V c).arrAt_in 3 rfl _).trans ((A_eq1 V c 3).trans (hrest main_v1 (by decide)).symm)
  have hr : (Pipeline.unscopedRest (Ix := Unit) (Name := ℕ) (U := UR sig nD τ) (Lvl := ℕ) spec1 c (V c) : sProp 𝕄) = Pipeline.unscopedRest (Ix := Unit) (Name := ℕ) (U := UR sig nD τ) (Lvl := ℕ) spec1 c V' := by
    unfold Pipeline.unscopedRest
    exact bigSep_congr fun b hb => by
      rw [hrest b (fun e => (Finset.mem_sdiff.mp hb).2 (e ▸ Finset.mem_image.mpr ⟨4, Finset.mem_univ _, rfl⟩))]
  rw [hr]
  dsimp only
  rw [e0, e1, e2, e3, ← h2]
  have hjoin : iprop((((c : Thread nD τ).loc main_v0_0) ↦{fullShare.left} V' main_v0_0) ∗ (((c : Thread nD τ).loc main_v0_0) ↦{fullShare.right} V' main_v0_0))
      ⊢ ((((c : Thread nD τ).loc main_v0_0) ↦{fullShare} V' main_v0_0 : sProp 𝕄)) :=
    (pointsTo_share (PosShare.mem_left_op_right fullShare)).2
  iintro ⟨⟨H0l, H0r, H1, H3, H4⟩, Hrest⟩
  isplitr [Hrest]
  · isplitl [H0l H0r]
    · iapply hjoin
      isplitl [H0l]; · iexact H0l
      iexact H0r
    isplitl [H1]; · iexact H1
    isplitl [H3]; · iexact H3
    iexact H4
  iexact Hrest

end Shared

end Cert.KernelIdeal.Gen

end
-- ==== Proof.KI.Regs.lean ====
/- The two kernel regions as steps of the program: each is entered from "every unscoped buffer at the boundary's
   contents, the generator register at some state, nothing owed" and left at the same with the next boundary's
   contents. -/
import proofs.«129088_j10788957848170_1_alg».proof.Proof.KI.Segs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After region 0 its arrays hold what its proof data computes (the input as entered, the two outputs at what the
    blocks wrote), and every other buffer what it held at entry. -/
theorem hF0 (c : Dev nD) (w : Fin cfg0.W) : (dat0 (E0 m) c).arrAt w cfg0.N = (fun b : Ref sig .tc => Y1 m c b) (Pipeline.arrRef spec0 w) := by
  match w with
  | ⟨0, _⟩ => exact ((dat0 (E0 m) c).arrAt_in 0 rfl _).trans (by
      show E0 m c main_arg0 = Y1 m c main_arg0
      simp only [Y1, Function.update_of_ne (StableHlo.devRef_ne_of_ne (by decide) : (Proc.devRef .tc main_arg0 : DevRef τ sig) ≠ Proc.devRef .tc main_v0_1),
        Function.update_of_ne (StableHlo.devRef_ne_of_ne (by decide) : (Proc.devRef .tc main_arg0 : DevRef τ sig) ≠ Proc.devRef .tc main_v0_0)])
  | ⟨1, _⟩ => exact (by
      show X1 m c = Y1 m c main_v0_0
      simp only [Y1, Function.update_of_ne (StableHlo.devRef_ne_of_ne (by decide) : (Proc.devRef .tc main_v0_0 : DevRef τ sig) ≠ Proc.devRef .tc main_v0_1), Function.update_self])
  | ⟨2, _⟩ => exact (by
      show X2 m c = Y1 m c main_v0_1
      simp only [Y1, Function.update_self])
theorem hrest0 (c : Dev nD) : ∀ b, b ∉ Finset.univ.image (Pipeline.arrRef spec0) → (fun b : Ref sig .tc => Y1 m c b) b = E0 m c b := fun b hb => by
  have h1 : b ≠ main_v0_0 := fun e => hb (e ▸ Finset.mem_image.mpr ⟨1, Finset.mem_univ _, rfl⟩)
  have h2 : b ≠ main_v0_1 := fun e => hb (e ▸ Finset.mem_image.mpr ⟨2, Finset.mem_univ _, rfl⟩)
  show Y1 m c b = _
  simp only [Y1, Function.update_of_ne (StableHlo.devRef_ne_of_ne h2 : (Proc.devRef .tc b : DevRef τ sig) ≠ Proc.devRef .tc main_v0_1),
    Function.update_of_ne (StableHlo.devRef_ne_of_ne h1 : (Proc.devRef .tc b : DevRef τ sig) ≠ Proc.devRef .tc main_v0_0)]

set_option backward.isDefEq.respectTransparency.types false in
/-- REGION 0 (the row normalization). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Y1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [show (unscopedBufs c (E0 m c) : sProp 𝕄) = StableHlo.held (c : Thread nD τ) (Pipeline.ucRefs τ sig) (V0 m c) from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => Y1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ≠ main_v2 → (fun b : Ref sig .tc => Y3 m c b) b = E2 m c b := fun b hb => by
  show Y3 m c b = Y2 m c b
  simp only [Y3, Function.update_of_ne (StableHlo.devRef_ne_of_ne hb : (Proc.devRef .tc b : DevRef τ sig) ≠ Proc.devRef .tc main_v2)]
theorem h2_1 (c : Dev nD) : (fun b : Ref sig .tc => Y3 m c b) main_v2 = (dat1 (E2 m) c).arrAt 4 cfg1.N := by
  show Y3 m c main_v2 = X3 m c
  simp only [Y3, Function.update_self]

set_option backward.isDefEq.respectTransparency.types false in
/-- REGION 1 (the pairwise sums). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Y2 m c) ∗ R c)
  post c := iprop(StableHlo.held (c : Thread nD τ) (Pipeline.ucRefs τ sig) (Y3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest (Ix := Unit) (Name := ℕ) (U := UR sig nD τ) (Lvl := ℕ) spec1 c (E2 m c)) := entry1 (E2 m) c
    rw [show (unscopedBufs c (E2 m c) : sProp 𝕄) = StableHlo.held (c : Thread nD τ) (Pipeline.ucRefs τ sig) (Y2 m c) from Pipeline.unscopedBufs_held c (Y2 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E2 m c))
        ⊢ (unscopedBufs c (fun b : Ref sig .tc => Y3 m c b) : sProp 𝕄) := exit1 (E2 m) c (fun b : Ref sig .tc => Y3 m c b) (h2_1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Frame.lean ====
/- The whole program: launched from any memory with every counter at zero, every weakly fair execution runs the
   row normalization, the reshape, the pairwise sums and the closing host operations to the end, faults nowhere,
   leaves the input array as launched, and leaves the result buffer at the closing operations' value of what the
   two regions wrote. -/
import proofs.«129088_j10788957848170_1_alg».proof.Proof.KI.Regs
import proofs.«129088_j10788957848170_1_alg».proof.Proof.KI.RunCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result named: the final memory holds the last boundary's contents at the result buffer and the
    launch contents at the argument. -/
theorem run_main : θ_run defs (onTc (τ := τ) (main (F := F))) ⟨m, fun _ => 0, ρ⟩ (fun r => ∀ c : Dev nD,
      r.2.mem ((c.tc : Thread nD τ).loc main_v7) = Y4 m c main_v7
      ∧ r.2.mem ((c.tc : Thread nD τ).loc main_arg0) = m ((c.tc : Thread nD τ).loc main_arg0)) := by
  have h := run_cond m (emb₁ : Emb (URounds (GSem nD τ sig) Unit) 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
  refine (θ_run defs _ _).mono (fun r hr c => ⟨?_, (hr c).2⟩) h
  rw [(hr c).1, V4_eq]

/-- THE FRAME: the program runs to the end and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Gen

end
-- ==== Proof.Spec.lean ====
/- The quantity both programs compute, over the extended reals, written index by index.
   For an input matrix x (8192 rows of 2048 entries):
     ss n     = Σ_d x[n,d]²                         the squared length of row n
     den n    = max (√(ss n)) ε                     its length, floored at ε
     xn n d   = x[n,d] / den n                      the normalized row
     sq n     = Σ_d xn[n,d]²                        the squared length of the normalized row
     gram n m = Σ_d xn[n,d]·xn[m,d]                 the inner product of normalized rows n and m
     e n m    = exp (−max (sq n + sq m − 2·gram n m) 0)
     rowsum n = Σ_m e n m
   The closing steps (divide each row sum by 8191, add them all up, divide by 8192) are the same host
   operations in both programs and are carried as one function of the row-sum vector. -/
import Idealize.ShloMosaic.PureOps.Ideal
import Idealize.ShloMosaic.Lib.ValueIdx

noncomputable section

open scoped BigOperators

namespace Cert.Spec

open Idealize.ShloMosaic Idealize.ShloMosaic.ValueIdx

/-- The input matrix as the programs hold it. -/
abbrev Mat : Type := (⟨2, ![8192, 2048]⟩ : Shape).Idx → EReal

/-- The floor ε under a row's length, and the factor 2, as the float literals both programs share. -/
abbrev eps : EReal := Ideal.ofBits .f32 0x2B8CBCCC#32
abbrev two : EReal := Ideal.ofBits .f32 0x40000000#32

def ss (x : Mat) (n : Fin 8192) : EReal := ∑ d : Fin 2048, x (ix2 n d) * x (ix2 n d)
def den (x : Mat) (n : Fin 8192) : EReal := max (Ideal.sqrt (ss x n)) eps
def xn (x : Mat) (n : Fin 8192) (d : Fin 2048) : EReal := Ideal.div (x (ix2 n d)) (den x n)
def sq (x : Mat) (n : Fin 8192) : EReal := ∑ d : Fin 2048, xn x n d * xn x n d
def gram (x : Mat) (n m : Fin 8192) : EReal := ∑ d : Fin 2048, xn x n d * xn x m d
def e (x : Mat) (n m : Fin 8192) : EReal := Ideal.exp (-(max (sq x n + sq x m - two * gram x n m) 0))
def rowsum (x : Mat) (n : Fin 8192) : EReal := ∑ m : Fin 8192, e x n m

/-- The normalized rows as an array, the squared lengths as a column, and the row sums as a column. -/
def xnArr (x : Mat) : (⟨2, ![8192, 2048]⟩ : Shape).Idx → EReal := fun j => xn x (j 0) (j 1)
def sqCol (x : Mat) : (⟨2, ![8192, 1]⟩ : Shape).Idx → EReal := fun j => sq x (j 0)
def rowsumCol (x : Mat) : (⟨2, ![8192, 1]⟩ : Shape).Idx → EReal := fun j => rowsum x (j 0)
def rowsumVec (x : Mat) : (⟨1, ![8192]⟩ : Shape).Idx → EReal := fun j => rowsum x (j 0)
/-- The squared lengths laid out as a row. -/
def sqRow (x : Mat) : (⟨2, ![1, 8192]⟩ : Shape).Idx → EReal := fun j => sq x (j 1)

/-- The two divisors of the closing steps, as the float literals both programs share. -/
abbrev c8191 : EReal := Ideal.ofBits .f32 0x45FFF800#32
abbrev c8192 : EReal := Ideal.ofBits .f32 0x46000000#32
/-- The closing steps on a vector of row sums: each over 8191, all added up, the total over 8192. -/
def tailVal (r : (⟨1, ![8192]⟩ : Shape).Idx → EReal) : EReal := Ideal.div (∑ n : Fin 8192, Ideal.div (r (ix1 n)) c8191) c8192
/-- The scalar result. -/
def result (x : Mat) : (⟨0, ![]⟩ : Shape).Idx → EReal := fun _ => tailVal (rowsumVec x)

end Cert.Spec

end
-- ==== Proof.KI.R0Value.lean ====
/- What the row normalization leaves, as whole arrays over the extended reals: block t of 512 rows holds the
   normalized rows 512 t … 512 t + 511 and their squared lengths; the 16 blocks tile the arrays. -/
import proofs.«129088_j10788957848170_1_alg».proof.Proof.KI.Vals
import proofs.«129088_j10788957848170_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)

open Cert.KernelIdeal Cert.KernelIdeal.Gen Cert.Spec

/-- The sum over a row's 2048 entries, as the lane reduction reads it. -/
theorem rowsum_apply (v : FVec Ideal S512x2048 .f32) (h : S512x2048.Reduces [1] S512) (hφ : FKind.Formats .f32)
    (hacc : (0x00000000#32 : BitVec 32) = 0x00000000#32) (p : Fin 512) :
    multiReduction (F := Ideal) .add [1] S512 v 0x00000000#32 h hφ hacc (ix1 p) = ∑ k : Fin 2048, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- An `[a]` array cast to a column `[a, 1]` reads, at `(i, u)`, the operand at `i`, whatever the unit coordinate `u`. -/
theorem col_of_vec_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The floored length of row `p` of a block of 512 rows. -/
def blkDen (v0 : Vec Ideal S512x2048 .f32) (p : Fin 512) : EReal :=
  max (Ideal.sqrt (∑ k : Fin 2048, v0 (ix2 p k) * v0 (ix2 p k))) eps

/-- The first payload at `(p, d)`: the entry over the floored length of its row. -/
theorem pay1_apply (v0 : Vec Ideal S512x2048 .f32) (p : Fin 512) (d : Fin 2048) :
    k0_pay1 (F := Ideal) v0 (ix2 p d) = Ideal.div (v0 (ix2 p d)) (blkDen v0 p) := by
  unfold k0_pay1
  refine (divf_apply _ _ (ix2 p d)).trans ?_
  refine congrArg (Ideal.div (v0 (ix2 p d))) ?_
  refine (bcast_col_apply _ _ p d).trans ?_
  refine (maximumf_apply _ _ (ix2 p (0 : Fin 1))).trans ?_
  unfold blkDen
  refine congrArg₂ max ?_ rfl
  show Ideal.sqrt _ = _
  refine congrArg Ideal.sqrt ?_
  refine (col_of_vec_apply _ _ p (0 : Fin 1)).trans ?_
  exact rowsum_apply _ _ _ _ p

/-- The rounded payload is the first payload: rounding to the storage format is the identity over the extended reals. -/
theorem pay2_apply (v0 : Vec Ideal S512x2048 .f32) (p : Fin 512) (d : Fin 2048) :
    k0_pay2 (F := Ideal) v0 (ix2 p d) = Ideal.div (v0 (ix2 p d)) (blkDen v0 p) := by
  unfold k0_pay2
  exact (truncf_apply (ψ := .bf16) (k0_pay1 (F := Ideal) v0) bitsLt_bf16_f32 (ix2 p d)).trans (pay1_apply v0 p d)

/-- The third payload at `(p, u)`: the sum of the squares of row `p` of the first payload. -/
theorem pay3_apply (v0 : Vec Ideal S512x2048 .f32) (p : Fin 512) (u : Fin 1) :
    k0_pay3 (F := Ideal) v0 (ix2 p u)
      = ∑ k : Fin 2048, Ideal.div (v0 (ix2 p k)) (blkDen v0 p) * Ideal.div (v0 (ix2 p k)) (blkDen v0 p) := by
  unfold k0_pay3
  refine (col_of_vec_apply _ _ p u).trans ?_
  refine (rowsum_apply _ _ _ _ p).trans ?_
  refine Finset.sum_congr rfl fun k _ => ?_
  refine (mulf_apply _ _ (ix2 p k)).trans ?_
  rw [pay1_apply v0 p k]

/-- Row `p` of block `t` is a row of the matrix. -/
theorem row_lt {t : ℕ} (ht : t < 16) (p : Fin 512) : t * 512 + p.val < 8192 := by
  have := p.isLt; omega

/-- A block whose row `p` is row `n` of the matrix has, in row `p` of the rounded payload, the normalized row `n`. -/
theorem payXn_row (x : Mat) (v0 : Vec Ideal S512x2048 .f32) (n : Fin 8192) (p : Fin 512)
    (hv : ∀ k : Fin 2048, v0 (ix2 p k) = x (ix2 n k)) (d : Fin 2048) :
    k0_pay2 (F := Ideal) v0 (ix2 p d) = xn x n d := by
  rw [pay2_apply]
  unfold xn den ss blkDen
  simp only [hv]

/-- … and in row `p` of the third payload the squared length of the normalized row `n`. -/
theorem paySq_row (x : Mat) (v0 : Vec Ideal S512x2048 .f32) (n : Fin 8192) (p : Fin 512)
    (hv : ∀ k : Fin 2048, v0 (ix2 p k) = x (ix2 n k)) (u : Fin 1) :
    k0_pay3 (F := Ideal) v0 (ix2 p u) = sq x n := by
  rw [pay3_apply]
  unfold Cert.Spec.sq xn den ss blkDen
  simp only [hv]

/-- Block `t` of 512 rows of the matrix: its rounded payload is block `t` of the normalized rows. -/
theorem payXn_block (x : Mat) (v0 : Vec Ideal S512x2048 .f32) (t : ℕ) (ht : t < 16)
    (hv : ∀ (p : Fin 512) (k : Fin 2048), v0 (ix2 p k) = x (ix2 (⟨t * 512 + p.val, row_lt ht p⟩ : Fin 8192) k))
    (j : S512x2048.Idx) (i : S8192x2048.Idx) (h0 : (i 0).val = t * 512 + (j 0).val) (h1 : (i 1).val = (j 1).val) :
    k0_pay2 (F := Ideal) v0 j = xnArr x i := by
  obtain ⟨p, d, rfl⟩ : ∃ (p : Fin 512) (d : Fin 2048), j = ix2 p d := ⟨j 0, j 1, eq_ix2 j⟩
  obtain ⟨n, e, rfl⟩ : ∃ (n : Fin 8192) (e : Fin 2048), i = ix2 n e := ⟨i 0, i 1, eq_ix2 i⟩
  have hn : n = (⟨t * 512 + p.val, row_lt ht p⟩ : Fin 8192) := Fin.ext h0
  have he : e = d := Fin.ext h1
  subst hn he
  exact payXn_row x v0 _ p (hv p) e

/-- … and its third payload is block `t` of the column of squared lengths. -/
theorem paySq_block (x : Mat) (v0 : Vec Ideal S512x2048 .f32) (t : ℕ) (ht : t < 16)
    (hv : ∀ (p : Fin 512) (k : Fin 2048), v0 (ix2 p k) = x (ix2 (⟨t * 512 + p.val, row_lt ht p⟩ : Fin 8192) k))
    (j : S512x1.Idx) (i : S8192x1.Idx) (h0 : (i 0).val = t * 512 + (j 0).val) :
    k0_pay3 (F := Ideal) v0 j = sqCol x i := by
  obtain ⟨p, u, rfl⟩ : ∃ (p : Fin 512) (u : Fin 1), j = ix2 p u := ⟨j 0, j 1, eq_ix2 j⟩
  obtain ⟨n, e, rfl⟩ : ∃ (n : Fin 8192) (e : Fin 1), i = ix2 n e := ⟨i 0, i 1, eq_ix2 i⟩
  have hn : n = (⟨t * 512 + p.val, row_lt ht p⟩ : Fin 8192) := Fin.ext h0
  subst hn
  exact paySq_row x v0 _ p (hv p) u

variable (m : (ℓ : Loc nD τ sig) → Buf (Elt Ideal) ℓ)

/-- The input matrix on core `c`. -/
abbrev xIn (c : Dev nD) : Cert.Spec.Mat := m ((c : Thread nD τ).loc main_arg0)

/-- Inside a block nothing is shifted. -/
theorem zeroOff : (![0, 0] : Fin 2 → Nat) = fun _ => 0 := funext fun a => by fin_cases a <;> rfl

/-- Grid point `t` works on block `t` along the rows, and on the one block there is along the columns, in all three arrays. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- There are 16 grid points. -/
theorem point_lt (t : Fin cfg0.N) : t.val < 16 := by
  have h : t.val < grid0.N := t.isLt
  rw [N_0] at h
  exact h

/-- The input block at point `t` holds rows 512 t … 512 t + 511 of the matrix. -/
theorem inBlock (c : Dev nD) (t : Fin cfg0.N) (p : Fin 512) (k : Fin 2048) :
    (iblk0 (E0 m) c 0 t : Vec Ideal S512x2048 .f32) (ix2 p k)
      = xIn m c (ix2 (⟨t.val * 512 + p.val, row_lt (point_lt t) p⟩ : Fin 8192) k) := by
  obtain ⟨e0, e1, -⟩ := blockIndex t
  show E0 m c main_arg0 (((cfg0.win 0).blk t).view.emb (ix2 p k)) = xIn m c _
  refine congrArg (m ((c : Thread nD τ).loc main_arg0)) ?_
  funext a
  apply Fin.ext
  match a with
  | ⟨0, _⟩ => show win0_0.index t (0 : Fin 2) * 512 + 1 * p.val = t.val * 512 + p.val; omega
  | ⟨1, _⟩ => show win0_0.index t (1 : Fin 2) * 2048 + 1 * k.val = k.val; omega

/-- What point `t` writes back to the normalized-rows array is block `t` of the normalized rows of the whole matrix. -/
theorem flushedXn (c : Dev nD) (t : Fin cfg0.N) :
    (dat0 (E0 m) c).flushed 1 t = ((cfg0.win 1).blk t).view.read (Elt Ideal) (xnArr (xIn m c)) := by
  show (cfg0.win 1).cut (grid0.coords t) ((dat0 (E0 m) c).after 1 t) = _
  rw [after0_1]
  unfold out0_1
  rw [View.canon_unit_zero zeroOff]
  simp only [View.ld_unit_zero (S := S512x2048) zeroOff]
  obtain ⟨-, -, e2, e3, -⟩ := blockIndex t
  funext j
  show k0_pay2 (F := Ideal) (iblk0 (E0 m) c 0 t) j = xnArr (xIn m c) (((cfg0.win 1).blk t).view.emb j)
  refine payXn_block (xIn m c) (iblk0 (E0 m) c 0 t) t.val (point_lt t) (fun p k => inBlock m c t p k) j _ ?_ ?_
  · show win0_1.index t (0 : Fin 2) * 512 + 1 * (j 0).val = t.val * 512 + (j 0).val; omega
  · show win0_1.index t (1 : Fin 2) * 2048 + 1 * (j 1).val = (j 1).val; omega

/-- What point `t` writes back to the squared-lengths column is block `t` of the squared lengths of the normalized rows. -/
theorem flushedSq (c : Dev nD) (t : Fin cfg0.N) :
    (dat0 (E0 m) c).flushed 2 t = ((cfg0.win 2).blk t).view.read (Elt Ideal) (sqCol (xIn m c)) := by
  show (cfg0.win 2).cut (grid0.coords t) ((dat0 (E0 m) c).after 2 t) = _
  rw [after0_2]
  unfold out0_2
  rw [View.canon_unit_zero zeroOff]
  simp only [View.ld_unit_zero (S := S512x2048) zeroOff]
  obtain ⟨-, -, -, -, e4, e5⟩ := blockIndex t
  funext j
  show k0_pay3 (F := Ideal) (iblk0 (E0 m) c 0 t) j = sqCol (xIn m c) (((cfg0.win 2).blk t).view.emb j)
  refine paySq_block (xIn m c) (iblk0 (E0 m) c 0 t) t.val (point_lt t) (fun p k => inBlock m c t p k) j _ ?_
  show win0_2.index t (0 : Fin 2) * 512 + 1 * (j 0).val = t.val * 512 + (j 0).val; omega

/-- An index of the normalized-rows array is in point `t`'s block iff each coordinate is in the block's range on its axis. -/
theorem mem_blkXn (t : Fin cfg0.N) (i : S8192x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0_0).slice (win0_1.rect t)).set ↔ _
  rw [View.set_slice_whole, Rect.mem_set_unit]
  exact Iff.rfl

/-- The same for the squared-lengths column. -/
theorem mem_blkSq (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_1).slice (win0_2.rect t)).set ↔ _
  rw [View.set_slice_whole, Rect.mem_set_unit]
  exact Iff.rfl

/-- Row `r` lies in the block of point `r / 512`. -/
theorem point_of_row (r : ℕ) (hr : r < 8192) : ∃ t : Fin cfg0.N, t.val = r / 512 :=
  ⟨⟨r / 512, by show r / 512 < grid0.N; rw [N_0]; omega⟩, rfl⟩

/-- The 16 blocks tile the normalized-rows array. -/
theorem coverXn (i : S8192x2048.Idx) : ∃ t : Fin cfg0.N, (cfg0.win 1).flush t = true ∧ i ∈ ((cfg0.win 1).blk t).view.set := by
  have hi0 : (i 0).val < 8192 := (i 0).isLt
  have hi1 : (i 1).val < 2048 := (i 1).isLt
  obtain ⟨t, ht⟩ := point_of_row (i 0).val hi0
  obtain ⟨-, -, e2, e3, -⟩ := blockIndex t
  refine ⟨t, flush0_1 t, ?_⟩
  rw [mem_blkXn]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- … and the squared-lengths column. -/
theorem coverSq (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := point_of_row (i 0).val hi0
  obtain ⟨-, -, -, -, e4, e5⟩ := blockIndex t
  refine ⟨t, flush0_2 t, ?_⟩
  rw [mem_blkSq]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- Region 0 leaves the normalized rows in its first output array. -/
theorem X1_eq (c : Dev nD) : (X1 m c : S8192x2048.Idx → EReal) = xnArr (xIn m c) := by
  unfold X1
  exact (dat0 (E0 m) c).arrAt_eq_of_cover 1 (xnArr (xIn m c)) (fun t _ => flushedXn m c t) coverXn

/-- Region 0 leaves the squared lengths of the normalized rows in its second output array. -/
theorem X2_eq (c : Dev nD) : (X2 m c : S8192x1.Idx → EReal) = sqCol (xIn m c) := by
  unfold X2
  exact (dat0 (E0 m) c).arrAt_eq_of_cover 2 (sqCol (xIn m c)) (fun t _ => flushedSq m c t) coverSq

end Cert.KernelIdeal.Val

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.KI.R1Value.lean ====
/- What the pairwise region leaves, as a whole array over the extended reals: entered with the normalized rows,
   their squared lengths as a column and as a row, the accumulator of row block i after column block j holds the
   partial row sums Σ_{m < 1024 (j+1)} e n m, and the column written back after the last column block holds the
   full row sums. -/
import proofs.«129088_j10788957848170_1_alg».proof.Proof.KI.R1Body
import proofs.«129088_j10788957848170_1_alg».proof.Proof.Spec
import proofs.«129088_j10788957848170_1_alg».proof.Proof.LibBlockSum
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Idealize.ShloMosaic.Tactic

open Cert.KernelIdeal Cert.KernelIdeal.Gen Cert.Spec

/-! ## What each of the two control cases leaves in the accumulator buffer, for any float values -/

section Pieces
variable {F : FTy → Type} [FloatOps F]

/-- The zero offsets of a whole-buffer access. -/
theorem hz2 : (![0, 0] : Fin 2 → Nat) = fun _ => 0 := funext fun a => by fin_cases a <;> rfl

/-- A later column block: one store covers the accumulator buffer, of the running contents plus the block's row sums. -/
theorem out1_B_eq (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : ¬cond1_0 i)
    (x0 : Vec F S1024x2048 .bf16) (x1 : Vec F S1024x2048 .bf16) (x2 : Vec F S1024x1 .f32) (x3 : Vec F S1x1024 .f32) (xo4 : Vec F S1024x1 .f32) :
    out1_B_4 c i arg2 harg2 arg3 harg3 arg4 harg4 arg5 harg5 arg6 harg6 hc0 x0 x1 x2 x3 xo4 = k1_pay2 x0 x1 x2 x3 xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz2]
  simp only [View.readAt_eq_ld, harg2.read_unread, harg3.read_unread, harg4.read_unread, harg5.read_unread, harg6.read_unread,
    View.ld_unit_zero (S := S1024x2048) hz2, View.ld_unit_zero (S := S1024x1) hz2, View.ld_unit_zero (S := S1x1024) hz2]

/-- The first column block: the zero column is stored and read back, then the same sum is stored over it. -/
theorem out1_A_eq (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (hc0 : cond1_0 i)
    (x0 : Vec F S1024x2048 .bf16) (x1 : Vec F S1024x2048 .bf16) (x2 : Vec F S1024x1 .f32) (x3 : Vec F S1x1024 .f32) :
    out1_A_4 c i arg2 harg2 arg3 harg3 arg4 harg4 arg5 harg5 arg6 harg6 hc0 x0 x1 x2 x3 = k1_pay2 x0 x1 x2 x3 (k1_pay1 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread,
    View.ld_unit_zero (S := S1024x2048) hz2, View.ld_unit_zero (S := S1024x1) hz2, View.ld_unit_zero (S := S1x1024) hz2]
end Pieces

/-! ## The stored column read at a row, over the extended reals -/

section Payload

/-- A vector cast to a column reads, at row i, the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_mm_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_mm_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_mm_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_mm_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The block product into the zero block, at (p, q): the inner product of row p of the left operand and column q of the right. -/
theorem mm_apply (y0 : FVec Ideal S1024x2048 .bf16) (y1 : FVec Ideal S2048x1024 .bf16) (p q : Fin 1024) :
    matmul dot_S1024x2048_S2048x1024_S1024x1024_1_0_0_1_n_n none y0 y1 (constant (F := Ideal) S1024x1024 .f32 0x00000000#32) (ix2 p q)
      = ∑ d : Fin 2048, y0 (ix2 p d) * y1 (ix2 d q) := by
  simp only [matmul]
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

theorem lift_row (p q : Fin 1024) : reduces_S1024x1024_S1024.lift (ix1 p) q = ix2 p q :=
  funext fun a => Fin.ext (by match a with | ⟨0, _⟩ => rfl | ⟨1, _⟩ => rfl)

/-- The sum along the rows of a 1024 × 1024 block, at row p: the sum of the block's row p over its 1024 columns. -/
theorem colsum_apply (src : FVec Ideal S1024x1024 .f32) (hφ : FKind.Formats .f32)
    (hacc : (0x00000000#32 : BitVec 32) = FKind.add.neutral .f32 hφ) (p : Fin 1024) :
    multiReduction .add [1] S1024 src 0x00000000#32 reduces_S1024x1024_S1024 hφ hacc (ix1 p) = ∑ q : Fin 1024, src (ix2 p q) := by
  refine (Ideal.multiReduction_add_single src _ reduces_S1024x1024_S1024 hφ hacc (ix1 p)).trans ?_
  exact Finset.sum_congr rfl fun (q : Fin 1024) _ => congrArg src (lift_row p q)

/-- The stored column at row p: the running value there plus the sum, over the 1024 columns q of the block, of
    exp (0 − max (sqi p + sqj q − 2 · ⟨xi p, xj q⟩, 0)). -/
theorem acc_pay_apply (x0 x1 : Vec Ideal S1024x2048 .bf16) (x2 : Vec Ideal S1024x1 .f32) (x3 : Vec Ideal S1x1024 .f32) (a : Vec Ideal S1024x1 .f32) (p : Fin 1024) :
    k1_pay2 x0 x1 x2 x3 a (ix2 p (0 : Fin 1)) = a (ix2 p (0 : Fin 1)) + ∑ q : Fin 1024, Ideal.exp (0 - max (x2 (ix2 p (0 : Fin 1)) + x3 (ix2 (0 : Fin 1) q) - two * ∑ d : Fin 2048, x0 (ix2 p d) * x1 (ix2 q d)) 0) := by
  unfold k1_pay2
  dsimp only
  simp only [shapeCast_self]
  refine (addf_apply _ _ _).trans ?_
  refine congrArg (a (ix2 p (0 : Fin 1)) + ·) ?_
  refine (shapeCast_a_a1_apply _ shapeCasts_S1024_S1024x1 p 0).trans ?_
  refine (colsum_apply _ _ _ p).trans ?_
  refine Finset.sum_congr rfl fun (q : Fin 1024) _ => ?_
  show Ideal.exp (Ideal.ofBits .f32 0x00000000#32 - max ((broadcastTo S1024x1024 x2 broadcasts_S1024x1_S1024x1024 (ix2 p q) + broadcastTo S1024x1024 x3 broadcasts_S1x1024_S1024x1024 (ix2 p q))
      - Ideal.ofBits .f32 0x40000000#32 * matmul dot_S1024x2048_S2048x1024_S1024x1024_1_0_0_1_n_n none x0 (transpose S2048x1024 [1, 0] x1 transposes_S1024x2048_p1_0_S2048x1024) (constant (F := Ideal) S1024x1024 .f32 0x00000000#32) (ix2 p q)) (Ideal.ofBits .f32 0x00000000#32)) = _
  rw [broadcastTo_a1_ab_apply, broadcastTo_1b_ab_apply, mm_apply, Ideal.ofBits_zero_f32]
  have ht : ∀ d : Fin 2048, transpose S2048x1024 [1, 0] x1 transposes_S1024x2048_p1_0_S2048x1024 (ix2 d q) = x1 (ix2 q d) :=
    fun d => transpose_ix2_apply x1 transposes_S1024x2048_p1_0_S2048x1024 d q
  simp only [ht]

end Payload

/-! ## The input blocks of a grid point as entries of the whole arrays -/

section Blocks

variable (V : (c : Dev nD) → (b : Ref sig .tc) → Buf (Elt Ideal) ((c : Thread nD τ).loc b))

/-- The four input blocks of a grid point, at their literal types: the rows of row block i, the rows of column block j,
    the squared lengths of row block i as a column and of column block j as a row. -/
abbrev xi (c : Dev nD) (t : Fin cfg1.N) : Vec Ideal S1024x2048 .bf16 := iblk1 V c 0 t
abbrev xj (c : Dev nD) (t : Fin cfg1.N) : Vec Ideal S1024x2048 .bf16 := iblk1 V c 1 t
abbrev sqi (c : Dev nD) (t : Fin cfg1.N) : Vec Ideal S1024x1 .f32 := iblk1 V c 2 t
abbrev sqj (c : Dev nD) (t : Fin cfg1.N) : Vec Ideal S1x1024 .f32 := iblk1 V c 3 t

/-- The block index maps over the row-major 8 × 8 grid: position t is row block t / 8, column block t % 8. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

theorem xi_apply (c : Dev nD) (x : Cert.Spec.Mat) (h0 : (V c main_v0_0 : S8192x2048.Idx → EReal) = xnArr x)
    (t : Fin cfg1.N) (p : Fin 1024) (d : Fin 2048) (r : Fin 8192) (hr : r.val = 1024 * (t.val / 8) + p.val) :
    xi V c t (ix2 p d) = xn x r d := by
  unfold xi iblk1
  rw [View.read_apply]
  show (V c main_v0_0 : S8192x2048.Idx → EReal) _ = _
  rw [h0]
  show xn x _ _ = xn x r d
  refine congrArg₂ (xn x) (Fin.ext ?_) (Fin.ext ?_)
  · show win1_0.index t (0 : Fin 2) * 1024 + 1 * p.val = r.val
    rw [(idx_facts1 t).1, hr]; omega
  · show win1_0.index t (1 : Fin 2) * 2048 + 1 * d.val = d.val
    rw [(idx_facts1 t).2.1]; omega

theorem xj_apply (c : Dev nD) (x : Cert.Spec.Mat) (h0 : (V c main_v0_0 : S8192x2048.Idx → EReal) = xnArr x)
    (t : Fin cfg1.N) (q : Fin 1024) (d : Fin 2048) (m : Fin 8192) (hm : m.val = 1024 * (t.val % 8) + q.val) :
    xj V c t (ix2 q d) = xn x m d := by
  unfold xj iblk1
  rw [View.read_apply]
  show (V c main_v0_0 : S8192x2048.Idx → EReal) _ = _
  rw [h0]
  show xn x _ _ = xn x m d
  refine congrArg₂ (xn x) (Fin.ext ?_) (Fin.ext ?_)
  · show win1_1.index t (0 : Fin 2) * 1024 + 1 * q.val = m.val
    rw [(idx_facts1 t).2.2.1, hm]; omega
  · show win1_1.index t (1 : Fin 2) * 2048 + 1 * d.val = d.val
    rw [(idx_facts1 t).2.2.2.1]; omega

theorem sqi_apply (c : Dev nD) (x : Cert.Spec.Mat) (h1 : (V c main_v0_1 : S8192x1.Idx → EReal) = sqCol x)
    (t : Fin cfg1.N) (p : Fin 1024) (r : Fin 8192) (hr : r.val = 1024 * (t.val / 8) + p.val) :
    sqi V c t (ix2 p (0 : Fin 1)) = Cert.Spec.sq x r := by
  unfold sqi iblk1
  rw [View.read_apply]
  show (V c main_v0_1 : S8192x1.Idx → EReal) _ = _
  rw [h1]
  show Cert.Spec.sq x _ = Cert.Spec.sq x r
  refine congrArg (Cert.Spec.sq x) (Fin.ext ?_)
  show win1_2.index t (0 : Fin 2) * 1024 + 1 * p.val = r.val
  rw [(idx_facts1 t).2.2.2.2.1, hr]; omega

theorem sqj_apply (c : Dev nD) (x : Cert.Spec.Mat) (h3 : (V c main_v1 : S1x8192.Idx → EReal) = sqRow x)
    (t : Fin cfg1.N) (q : Fin 1024) (m : Fin 8192) (hm : m.val = 1024 * (t.val % 8) + q.val) :
    sqj V c t (ix2 (0 : Fin 1) q) = Cert.Spec.sq x m := by
  unfold sqj iblk1
  rw [View.read_apply]
  show (V c main_v1 : S1x8192.Idx → EReal) _ = _
  rw [h3]
  show Cert.Spec.sq x _ = Cert.Spec.sq x m
  refine congrArg (Cert.Spec.sq x) (Fin.ext ?_)
  show win1_3.index t (1 : Fin 2) * 1024 + 1 * q.val = m.val
  rw [(idx_facts1 t).2.2.2.2.2.2.2.1, hm]; omega

end Blocks

/-! ## Partial row sums -/

section Sums

/-- An entry of e at natural-number coordinates (zero outside the matrix): the form in which partial row sums are carried. -/
def eN (x : Cert.Spec.Mat) (n m : ℕ) : EReal := if h : n < 8192 ∧ m < 8192 then Cert.Spec.e x ⟨n, h.1⟩ ⟨m, h.2⟩ else 0

theorem eN_eq (x : Cert.Spec.Mat) (r m : Fin 8192) : eN x r.val m.val = Cert.Spec.e x r m := by
  unfold eN; rw [dif_pos ⟨r.isLt, m.isLt⟩]

/-- A full row sum, cut into the 8 column blocks of 1024. -/
theorem rowsum_blocks (x : Cert.Spec.Mat) (r : Fin 8192) :
    rowsum x r = ∑ s ∈ Finset.range 8, ∑ q : Fin 1024, eN x r.val (1024 * s + q.val) := by
  unfold rowsum
  rw [← Cert.Lib.sum_fin_blocks (fun m => eN x r.val m) 8 1024]
  exact Finset.sum_congr rfl fun m _ => (eN_eq x r m).symm

end Sums

/-! ## The accumulator along the walk -/

section Invariant

variable (V : (c : Dev nD) → (b : Ref sig .tc) → Buf (Elt Ideal) ((c : Thread nD τ).loc b))

/-- What one grid point adds at row p of its row block: the entries of e on row 1024 (t / 8) + p over the 1024 columns of
    column block t % 8. -/
theorem term_sum (c : Dev nD) (x : Cert.Spec.Mat)
    (h0 : (V c main_v0_0 : S8192x2048.Idx → EReal) = xnArr x) (h1 : (V c main_v0_1 : S8192x1.Idx → EReal) = sqCol x)
    (h3 : (V c main_v1 : S1x8192.Idx → EReal) = sqRow x) (t : Fin cfg1.N) (p : Fin 1024) :
    ∑ q : Fin 1024, Ideal.exp (0 - max (sqi V c t (ix2 p (0 : Fin 1)) + sqj V c t (ix2 (0 : Fin 1) q)
        - two * ∑ d : Fin 2048, xi V c t (ix2 p d) * xj V c t (ix2 q d)) 0)
      = ∑ q : Fin 1024, eN x (1024 * (t.val / 8) + p.val) (1024 * (t.val % 8) + q.val) := by
  have hN : t.val < 64 := lt_of_lt_of_eq t.isLt N_1
  refine Finset.sum_congr rfl fun q _ => ?_
  have hr : 1024 * (t.val / 8) + p.val < 8192 := by have := p.isLt; omega
  have hm : 1024 * (t.val % 8) + q.val < 8192 := by have := q.isLt; omega
  rw [sqi_apply V c x h1 t p ⟨_, hr⟩ rfl, sqj_apply V c x h3 t q ⟨_, hm⟩ rfl]
  have hx : ∀ d : Fin 2048, xi V c t (ix2 p d) = xn x ⟨_, hr⟩ d := fun d => xi_apply V c x h0 t p d ⟨_, hr⟩ rfl
  have hy : ∀ d : Fin 2048, xj V c t (ix2 q d) = xn x ⟨_, hm⟩ d := fun d => xj_apply V c x h0 t q d ⟨_, hm⟩ rfl
  simp only [hx, hy]
  rw [zero_sub]
  exact (eN_eq x ⟨_, hr⟩ ⟨_, hm⟩).symm

/-- At the first column block of a row block the accumulator is zeroed and then holds that block's sums. -/
theorem stepA (c : Dev nD) (x : Cert.Spec.Mat)
    (h0 : (V c main_v0_0 : S8192x2048.Idx → EReal) = xnArr x) (h1 : (V c main_v0_1 : S8192x1.Idx → EReal) = sqCol x)
    (h3 : (V c main_v1 : S1x8192.Idx → EReal) = sqRow x) (t : Fin cfg1.N) (h8 : t.val % 8 = 0) (p : Fin 1024) :
    (outsAt1 V c t.val t.isLt : Vec Ideal S1024x1 .f32) (ix2 p (0 : Fin 1))
      = ∑ q : Fin 1024, eN x (1024 * (t.val / 8) + p.val) (1024 * (t.val % 8) + q.val) := by
  rw [outsAt1_A V c t h8]
  refine (congrFun (out1_A_eq (F := Ideal) c (grid1.coords t) (ms1_0 t) (hs1_0 t) (ms1_1 t) (hs1_1 t) (ms1_2 t) (hs1_2 t) (ms1_3 t) (hs1_3 t) (ms1_4 t) (hs1_4 t)
    ((hcond1_0 t).mpr h8) (xi V c t) (xj V c t) (sqi V c t) (sqj V c t)) (ix2 p (0 : Fin 1))).trans ?_
  refine (acc_pay_apply (xi V c t) (xj V c t) (sqi V c t) (sqj V c t) (k1_pay1 (F := Ideal)) p).trans ?_
  show Ideal.ofBits .f32 0x00000000#32 + _ = _
  rw [Ideal.ofBits_zero_f32, zero_add]
  exact term_sum V c x h0 h1 h3 t p

/-- At a later column block the accumulator holds what the point before left plus that block's sums. -/
theorem stepB (c : Dev nD) (x : Cert.Spec.Mat)
    (h0 : (V c main_v0_0 : S8192x2048.Idx → EReal) = xnArr x) (h1 : (V c main_v0_1 : S8192x1.Idx → EReal) = sqCol x)
    (h3 : (V c main_v1 : S1x8192.Idx → EReal) = sqRow x) (t : Fin cfg1.N) (h8 : ¬t.val % 8 = 0) (p : Fin 1024) :
    (outsAt1 V c t.val t.isLt : Vec Ideal S1024x1 .f32) (ix2 p (0 : Fin 1))
      = (outsAt1 V c (t.val - 1) (Nat.lt_of_le_of_lt (Nat.sub_le _ _) t.isLt) : Vec Ideal S1024x1 .f32) (ix2 p (0 : Fin 1))
        + ∑ q : Fin 1024, eN x (1024 * (t.val / 8) + p.val) (1024 * (t.val % 8) + q.val) := by
  rw [outsAt1_B V c t h8]
  refine (congrFun (out1_B_eq (F := Ideal) c (grid1.coords t) (ms1_0 t) (hs1_0 t) (ms1_1 t) (hs1_1 t) (ms1_2 t) (hs1_2 t) (ms1_3 t) (hs1_3 t) (ms1_4 t) (hs1_4 t)
    (fun h => h8 ((hcond1_0 t).mp h)) (xi V c t) (xj V c t) (sqi V c t) (sqj V c t)
    (outsAt1 V c (t.val - 1) (Nat.lt_of_le_of_lt (Nat.sub_le _ _) t.isLt))) (ix2 p (0 : Fin 1))).trans ?_
  refine (acc_pay_apply (xi V c t) (xj V c t) (sqi V c t) (sqj V c t)
    (outsAt1 V c (t.val - 1) (Nat.lt_of_le_of_lt (Nat.sub_le _ _) t.isLt)) p).trans ?_
  exact congrArg (_ + ·) (term_sum V c x h0 h1 h3 t p)

/-- THE INVARIANT: after position n = 8 i + j of the walk, row p of the accumulator of row block i holds the sum of e on row
    1024 i + p over the first j + 1 column blocks. -/
theorem acc_eq (c : Dev nD) (x : Cert.Spec.Mat)
    (h0 : (V c main_v0_0 : S8192x2048.Idx → EReal) = xnArr x) (h1 : (V c main_v0_1 : S8192x1.Idx → EReal) = sqCol x)
    (h3 : (V c main_v1 : S1x8192.Idx → EReal) = sqRow x) :
    ∀ (n : ℕ) (hn : n < cfg1.N) (p : Fin 1024),
      (outsAt1 V c n hn : Vec Ideal S1024x1 .f32) (ix2 p (0 : Fin 1))
        = ∑ s ∈ Finset.range (n % 8 + 1), ∑ q : Fin 1024, eN x (1024 * (n / 8) + p.val) (1024 * s + q.val) := by
  intro n
  induction n using Nat.strong_induction_on with
  | _ n ih =>
    intro hn p
    by_cases h8 : n % 8 = 0
    · refine (stepA V c x h0 h1 h3 ⟨n, hn⟩ h8 p).trans ?_
      show ∑ q : Fin 1024, eN x (1024 * (n / 8) + p.val) (1024 * (n % 8) + q.val) = _
      rw [h8, Nat.zero_add, Finset.sum_range_one]
    · refine (stepB V c x h0 h1 h3 ⟨n, hn⟩ h8 p).trans ?_
      show (outsAt1 V c (n - 1) _ : Vec Ideal S1024x1 .f32) (ix2 p (0 : Fin 1)) + ∑ q : Fin 1024, eN x (1024 * (n / 8) + p.val) (1024 * (n % 8) + q.val) = _
      rw [ih (n - 1) (by omega) _ p, Finset.sum_range_succ _ (n % 8)]
      have e1 : (n - 1) / 8 = n / 8 := by omega
      have e2 : (n - 1) % 8 + 1 = n % 8 := by omega
      rw [e1, e2]

end Invariant

/-! ## The column written back -/

section Final

variable (V : (c : Dev nD) → (b : Ref sig .tc) → Buf (Elt Ideal) ((c : Thread nD τ).loc b))

/-- An index of the output column is in the block written back at point t iff its row is among the 1024 rows of row block t / 8. -/
theorem mem_blk4 (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v2).slice (win1_4.rect t)).set ↔ _
  rw [View.set_slice_whole, Rect.mem_set_unit]
  exact Iff.rfl

/-- Two columns of 1024 entries that agree at every row are equal. -/
theorem col_ext (f g : Vec Ideal S1024x1 .f32) (h : ∀ p : Fin 1024, f (ix2 p (0 : Fin 1)) = g (ix2 p (0 : Fin 1))) : f = g := by
  funext j
  obtain ⟨p, u, rfl⟩ : ∃ (p : Fin 1024) (u : Fin 1), j = ix2 p u := ⟨j 0, j 1, eq_ix2 j⟩
  obtain rfl : u = 0 := Subsingleton.elim _ _
  exact h p

/-- What the last column block of a row block writes back is that row block's rows of the full row sums. -/
theorem flushed4_eq (c : Dev nD) (x : Cert.Spec.Mat)
    (h0 : (V c main_v0_0 : S8192x2048.Idx → EReal) = xnArr x) (h1 : (V c main_v0_1 : S8192x1.Idx → EReal) = sqCol x)
    (h3 : (V c main_v1 : S1x8192.Idx → EReal) = sqRow x) (t : Fin cfg1.N) (hf : (cfg1.win 4).flush t = true) :
    (dat1 V c).flushed 4 t = ((cfg1.win 4).blk t).view.read (Elt Ideal) (rowsumCol x) := by
  have h7 : t.val % 8 = 7 := (flush1_4 t).mp hf
  have hN : t.val < 64 := lt_of_lt_of_eq t.isLt N_1
  show (cfg1.win 4).cut (grid1.coords t) ((dat1 V c).after 4 t) = _
  rw [after1_4]
  refine col_ext (outsAt1 V c t.val t.isLt) (((cfg1.win 4).blk t).view.read (Elt Ideal) (rowsumCol x)) fun p => ?_
  rw [acc_eq V c x h0 h1 h3 t.val t.isLt p, View.read_apply]
  have hr : 1024 * (t.val / 8) + p.val < 8192 := by have := p.isLt; omega
  show _ = rowsum x _
  have er : (((cfg1.win 4).blk t).view.emb (ix2 p (0 : Fin 1)) : S8192x1.Idx) 0 = (⟨1024 * (t.val / 8) + p.val, hr⟩ : Fin 8192) := by
    apply Fin.ext
    show win1_4.index t (0 : Fin 2) * 1024 + 1 * p.val = 1024 * (t.val / 8) + p.val
    rw [(idx_facts1 t).2.2.2.2.2.2.2.2.1]; omega
  rw [er, rowsum_blocks, h7]

/-- Every row is in the block written back at the last column block of its row block. -/
theorem cover4 (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  have hlt : 8 * ((i 0).val / 1024) + 7 < cfg1.N := by rw [show cfg1.N = 64 from N_1]; omega
  refine ⟨⟨8 * ((i 0).val / 1024) + 7, hlt⟩, (flush1_4 _).mpr (by show (8 * ((i 0).val / 1024) + 7) % 8 = 7; omega), ?_⟩
  rw [mem_blk4]
  intro a
  obtain ⟨-, -, -, -, -, -, -, -, e0, e1⟩ := idx_facts1 ⟨8 * ((i 0).val / 1024) + 7, hlt⟩
  match a with
  | ⟨0, _⟩ =>
    show win1_4.index ⟨8 * ((i 0).val / 1024) + 7, hlt⟩ (0 : Fin 2) * 1024 ≤ (i 0).val ∧ (i 0).val < win1_4.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_4.index ⟨8 * ((i 0).val / 1024) + 7, hlt⟩ (1 : Fin 2) * 1 ≤ (i 1).val ∧ (i 1).val < win1_4.index ⟨8 * ((i 0).val / 1024) + 7, hlt⟩ (1 : Fin 2) * 1 + 1
    rw [e1]; omega

end Final

variable (V : (c : Dev nD) → (b : Ref sig .tc) → Buf (Elt Ideal) ((c : Thread nD τ).loc b))

/-- Entered with the normalized rows of `x` (in the array both row windows read), their squared lengths as a column
    and as a row, region 1 leaves the row sums in its output column. -/
theorem arrAt4_eq (c : Dev nD) (x : Cert.Spec.Mat)
    (h0 : (V c main_v0_0 : S8192x2048.Idx → EReal) = xnArr x)
    (h1 : (V c main_v0_1 : S8192x1.Idx → EReal) = sqCol x)
    (h3 : (V c main_v1 : S1x8192.Idx → EReal) = sqRow x) :
    ((dat1 V c).arrAt 4 cfg1.N : S8192x1.Idx → EReal) = rowsumCol x :=
  (dat1 V c).arrAt_eq_of_cover 4 (rowsumCol x) (fun t hf => flushed4_eq V c x h0 h1 h3 t hf) cover4

end Cert.KernelIdeal.Val

end
-- ==== Proof.KI.Tail.lean ====
/- From what the two regions leave to the program's result. The squared lengths written as a column are reshaped to a
   row (entry (0, k) of the row is entry (k, 0) of the column); region 1, entered with the normalized rows and the
   squared lengths in both layouts, leaves the row sums; the closing host operations turn the column of row sums
   into a vector, divide each entry by 8191, add them up and divide by 8192. -/
import proofs.«129088_j10788957848170_1_alg».proof.Proof.KI.R0Value
import proofs.«129088_j10788957848170_1_alg».proof.Proof.KI.R1Value
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)

open Cert.KernelIdeal Cert.KernelIdeal.Gen Cert.Spec Idealize.ShloMosaic.StableHlo

variable (m : (ℓ : Loc nD τ sig) → Buf (Elt Ideal) ℓ)

/-- The reshape between the regions writes neither of region 0's outputs: region 1 finds them as region 0 left them. -/
theorem E2_v0_0 (c : Dev nD) : E2 m c main_v0_0 = X1 m c := by
  show Y2 m c main_v0_0 = _
  rw [← V2_eq, V2_of m (outs m) c main_v0_0 (by decide), V1_eq]
  show Y1 m c main_v0_0 = X1 m c
  simp only [Y1, Function.update_of_ne (StableHlo.devRef_ne_of_ne (by decide) : (Proc.devRef .tc main_v0_0 : DevRef τ sig) ≠ Proc.devRef .tc main_v0_1), Function.update_self]

theorem E2_v0_1 (c : Dev nD) : E2 m c main_v0_1 = X2 m c := by
  show Y2 m c main_v0_1 = _
  rw [← V2_eq, V2_of m (outs m) c main_v0_1 (by decide), V1_eq]
  show Y1 m c main_v0_1 = X2 m c
  simp only [Y1, Function.update_self]

/-- The row region 1 reads the squared lengths from: the column's entries laid along a row. -/
theorem E2_v1 (c : Dev nD) : (E2 m c main_v1 : S1x8192.Idx → EReal) = sqRow (xIn m c) := by
  show StableHlo.after hostOps1 (Y1 m c) (Proc.devRef .tc main_v1) = _
  after_results
  funext i
  obtain ⟨u, k, rfl⟩ : ∃ (u : Fin 1) (k : Fin 8192), i = ix2 u k := ⟨i 0, i 1, eq_ix2 i⟩
  show shapeCast S1x8192 (Y1 m c main_v0_1 : S8192x1.Idx → EReal) shapeCasts_S8192x1_S1x8192 (ix2 u k) = sq (xIn m c) k
  rw [shapeCast_apply _ _ _ (ix2 k (0 : Fin 1)) (by
    rw [Shape.rowMajor_val_two, Shape.rowMajor_val_two]
    show k.val * 1 + 0 = u.val * 8192 + k.val
    omega)]
  have h : (Y1 m c main_v0_1 : S8192x1.Idx → EReal) = sqCol (xIn m c) := by
    have := E2_v0_1 m c
    rw [← X2_eq m c, ← this]
    show Y1 m c main_v0_1 = Y2 m c main_v0_1
    rw [← V2_eq, V2_of m (outs m) c main_v0_1 (by decide), V1_eq]
  rw [h]
  rfl

/-- Region 1 leaves the row sums. -/
theorem X3_eq (c : Dev nD) : (X3 m c : S8192x1.Idx → EReal) = rowsumCol (xIn m c) :=
  arrAt4_eq (E2 m) c (xIn m c) ((E2_v0_0 m c).trans (X1_eq m c)) ((E2_v0_1 m c).trans (X2_eq m c)) (E2_v1 m c)

/-- A vector's indices are its coordinates. -/
def vecEquiv : S8192.Idx ≃ Fin 8192 where
  toFun i := i 0
  invFun n := ix1 n
  left_inv i := (eq_ix1 i).symm
  right_inv _ := rfl

/-- The result buffer at the end: the closing steps on the row sums. -/
theorem Y4_v7 (c : Dev nD) : (Y4 m c main_v7 : S_.Idx → EReal) = result (xIn m c) := by
  show StableHlo.after hostOps2 (Y3 m c) (Proc.devRef .tc main_v7) = _
  after_results
  have h3 : (Y3 m c main_v2 : S8192x1.Idx → EReal) = rowsumCol (xIn m c) := by
    rw [← X3_eq m c]
    show Y3 m c main_v2 = X3 m c
    simp only [Y3, Function.update_self]
  funext i
  show Ideal.div (Host.reduceAdd (F := Ideal) (Host.divf (F := Ideal) (shapeCast S8192 (Y3 m c main_v2 : S8192x1.Idx → EReal) shapeCasts_S8192x1_S8192)
      (broadcastInDim S8192 ![] bcast_S_S8192 (constant (F := Ideal) S_ .f32 0x45FFF800#32))) (constant (F := Ideal) S_ .f32 0x00000000#32) reducesTo_S8192_S_d0 h_S_ i) c8192
    = Ideal.div (∑ n : Fin 8192, Ideal.div (rowsumVec (xIn m c) (ix1 n)) c8191) c8192
  refine congrArg (fun s => Ideal.div s c8192) ?_
  simp only [Host.reduceAdd, Ideal.hostReduceAdd_def]
  rw [Ideal.hostReduceAdd_total reducesTo_S8192_S_d0 (fun b => b.elim0) _ _ i]
  show Ideal.ofBits .f32 0x00000000#32 + _ = _
  rw [Ideal.ofBits_zero_f32, zero_add, ← Equiv.sum_comp vecEquiv.symm]
  refine Finset.sum_congr rfl fun n _ => ?_
  show Ideal.div (shapeCast S8192 (Y3 m c main_v2 : S8192x1.Idx → EReal) shapeCasts_S8192x1_S8192 (ix1 n))
      (broadcastInDim S8192 ![] bcast_S_S8192 (constant (F := Ideal) S_ .f32 0x45FFF800#32) (ix1 n)) = _
  rw [shapeCast_apply _ _ _ (ix2 n (0 : Fin 1)) (by
    rw [Shape.rowMajor_val_two, Shape.rowMajor_val_one]
    show n.val * 1 + 0 = n.val
    omega), h3, broadcastInDim_apply _ bcast_S_S8192 _ (ix1 n) ix0 (fun a => a.elim0)]
  rfl

end Cert.KernelIdeal.Val

end
-- ==== Proof.RefValue.lean ====
/- The reference, operation by operation over the extended reals, is the specification: its row sums are
   Σ_m e n m and its result the closing steps on them. -/
import proofs.«129088_j10788957848170_1_alg».proof.Proof.Gen.ReferenceIdeal.Read
import proofs.«129088_j10788957848170_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Idealize.SL Idealize.SL.Sem
open Idealize.ShloMosaic.Pipeline (Dat Cfg Window)

open Cert.ReferenceIdeal Cert.ReferenceIdeal.Gen Cert.ReferenceIdeal.Read Cert.Spec

/-! ## The index maps of the program, on indices given by their coordinates -/

/-- Row n, entry k of a matrix with 2048 columns: the index a sum along a row reads (first sum). -/
theorem idx_ss (n : Fin 8192) (k : Fin 2048) : idx_main_call0_v1 (ix1 n) k = ix2 n k :=
  funext fun a => Fin.ext (by match a with | ⟨0, _⟩ => rfl | ⟨1, _⟩ => rfl)

/-- The same for the second sum along a row. -/
theorem idx_sq (n : Fin 8192) (k : Fin 2048) : idx_main_v6 (ix1 n) k = ix2 n k :=
  funext fun a => Fin.ext (by match a with | ⟨0, _⟩ => rfl | ⟨1, _⟩ => rfl)

/-- Row n, entry k of the 8192 by 8192 matrix: the index the row sum reads. -/
theorem idx_rowsum (n : Fin 8192) (k : Fin 8192) : idx_main_v20 (ix1 n) k = ix2 n k :=
  funext fun a => Fin.ext (by match a with | ⟨0, _⟩ => rfl | ⟨1, _⟩ => rfl)

/-- A column entry (n, z) reads the vector at n. -/
theorem idx_col0 (n : Fin 8192) (z : Fin 1) : idx_main_call0_v2 (ix2 n z) = ix1 n :=
  funext fun a => Fin.ext (by match a with | ⟨0, _⟩ => rfl)

theorem idx_col8 (n : Fin 8192) (z : Fin 1) : idx_main_v8 (ix2 n z) = ix1 n :=
  funext fun a => Fin.ext (by match a with | ⟨0, _⟩ => rfl)

/-- A row entry (z, m) reads the vector at m. -/
theorem idx_row9 (z : Fin 1) (m : Fin 8192) : idx_main_v9 (ix2 z m) = ix1 m :=
  funext fun a => Fin.ext (by match a with | ⟨0, _⟩ => rfl)

/-- Entry (n, d) of the matrix reads the column at (n, 0). -/
theorem idx_b3 (n : Fin 8192) (d : Fin 2048) : idx_main_v3 (ix2 n d) = ix2 n (0 : Fin 1) :=
  funext fun a => Fin.ext (by match a with | ⟨0, _⟩ => rfl | ⟨1, _⟩ => rfl)

/-- Entry (n, m) of the square matrix reads the column at (n, 0) … -/
theorem idx_b10 (n m : Fin 8192) : idx_main_v10 (ix2 n m) = ix2 n (0 : Fin 1) :=
  funext fun a => Fin.ext (by match a with | ⟨0, _⟩ => rfl | ⟨1, _⟩ => rfl)

/-- … and the row at (0, m). -/
theorem idx_b11 (n m : Fin 8192) : idx_main_v11 (ix2 n m) = ix2 (0 : Fin 1) m :=
  funext fun a => Fin.ext (by match a with | ⟨0, _⟩ => rfl | ⟨1, _⟩ => rfl)

/-- The inner product at (n, m) reads row n on the left and row m on the right. -/
theorem idx_l7 (n m : Fin 8192) (k : Fin 2048) : lidx_main_v7 (ix2 n m) k = ix2 n k :=
  funext fun a => Fin.ext (by match a with | ⟨0, _⟩ => rfl | ⟨1, _⟩ => rfl)

theorem idx_r7 (n m : Fin 8192) (k : Fin 2048) : ridx_main_v7 (ix2 n m) k = ix2 m k :=
  funext fun a => Fin.ext (by match a with | ⟨0, _⟩ => rfl | ⟨1, _⟩ => rfl)

/-! ## The stages -/

/-- The first sum is the squared length of row n. -/
theorem v1_eq (x : Cert.Spec.Mat) (n : Fin 8192) : val_main_call0_v1 (F := Ideal) x (ix1 n) = ss x n := by
  rw [val_main_call0_v1_apply]
  simp only [val_main_call0_cst_apply, val_main_call0_v0_apply, idx_ss, Ideal.ofBits_def, Ideal.ofBits_zero_f32,
    zero_add, Ideal.mulf_def]
  rfl

/-- The floored length of row n, held as a column. -/
theorem v2_eq (x : Cert.Spec.Mat) (n : Fin 8192) (z : Fin 1) : val_main_v2 (F := Ideal) x (ix2 n z) = den x n := by
  rw [val_main_v2_apply, val_main_v0_apply, val_main_call0_v2_apply, val_main_v1_apply, val_main_cst_apply, idx_col0, v1_eq]
  simp only [Ideal.hostUnary_sqrt_def, Ideal.maximumf_def, Ideal.ofBits_def]
  rfl

/-- The normalized row. -/
theorem v4_eq (x : Cert.Spec.Mat) (n : Fin 8192) (d : Fin 2048) : val_main_v4 (F := Ideal) x (ix2 n d) = xn x n d := by
  rw [val_main_v4_apply, val_main_v3_apply, idx_b3, v2_eq]
  simp only [Ideal.hostDivf_def]
  rfl

/-- The squared length of the normalized row. -/
theorem v6_eq (x : Cert.Spec.Mat) (n : Fin 8192) : val_main_v6 (F := Ideal) x (ix1 n) = sq x n := by
  rw [val_main_v6_apply]
  simp only [val_main_cst_0_apply, val_main_v5_apply, idx_sq, v4_eq, Ideal.ofBits_def, Ideal.ofBits_zero_f32,
    zero_add, Ideal.mulf_def]
  rfl

/-- The inner product of normalized rows n and m. -/
theorem v7_eq (x : Cert.Spec.Mat) (n m : Fin 8192) : val_main_v7 (F := Ideal) x (ix2 n m) = gram x n m := by
  rw [val_main_v7_apply]
  simp only [idx_l7, idx_r7, v4_eq]
  rfl

/-- The exponential at (n, m). -/
theorem v19_eq (x : Cert.Spec.Mat) (n m : Fin 8192) : val_main_v19 (F := Ideal) x (ix2 n m) = e x n m := by
  rw [val_main_v19_apply, val_main_v18_apply, val_main_v17_apply, val_main_v15_apply, val_main_v12_apply,
    val_main_v14_apply, val_main_v10_apply, val_main_v11_apply, val_main_v13_apply, val_main_v16_apply,
    val_main_v8_apply, val_main_v9_apply, val_main_cst_1_apply, val_main_cst_2_apply,
    idx_b10, idx_b11, idx_col8, idx_row9, v6_eq, v6_eq, v7_eq]
  simp only [Ideal.hostUnary_exp_def, Ideal.hostNegf_def, Ideal.negf_def, Ideal.maximumf_def, Ideal.subf_def,
    Ideal.addf_def, Ideal.mulf_def, Ideal.ofBits_def, Ideal.ofBits_zero_f32]
  rfl

/-- The row sum at n. -/
theorem v20_eq (x : Cert.Spec.Mat) (n : Fin 8192) : val_main_v20 (F := Ideal) x (ix1 n) = rowsum x n := by
  rw [val_main_v20_apply]
  simp only [val_main_cst_3_apply, idx_rowsum, v19_eq, Ideal.ofBits_def, Ideal.ofBits_zero_f32, zero_add]
  rfl

/-- A vector's indices are its coordinates. -/
def vecEquiv : S8192.Idx ≃ Fin 8192 where
  toFun i := i 0
  invFun n := ix1 n
  left_inv i := (eq_ix1 i).symm
  right_inv _ := rfl

/-- The reference's row sums (its value %20) are the specification's. -/
theorem val_main_v20_eq_rowsum (x : Cert.Spec.Mat) : (val_main_v20 (F := Ideal) x : S8192.Idx → EReal) = rowsumVec x := by
  funext i
  rw [eq_ix1 i]
  exact v20_eq x (i 0)

/-- The reference's result is the specification's. -/
theorem val_main_v24_eq_result (x : Cert.Spec.Mat) : (val_main_v24 (F := Ideal) x : S_.Idx → EReal) = result x := by
  funext i
  rw [val_main_v24_apply, val_main_v23_apply, val_main_cst_5_apply, val_main_cst_6_apply]
  simp only [Ideal.ofBits_def, Ideal.ofBits_zero_f32, zero_add, Ideal.hostDivf_def]
  show Ideal.div (∑ j : S8192.Idx, val_main_v22 (F := Ideal) x j) c8192 = Ideal.div (∑ n : Fin 8192, Ideal.div (rowsumVec x (ix1 n)) c8191) c8192
  refine congrArg (fun s => Ideal.div s c8192) ?_
  rw [← Equiv.sum_comp vecEquiv.symm]
  refine Finset.sum_congr rfl fun n _ => ?_
  show val_main_v22 (F := Ideal) x (ix1 n) = _
  rw [val_main_v22_apply, val_main_v21_apply, val_main_cst_4_apply, v20_eq]
  simp only [Ideal.hostDivf_def, Ideal.ofBits_def]
  rfl

end Cert.ReferenceIdeal.RefValue

end
-- ==== Proof.lean ====
/- The kernel normalizes the 8192 rows of its input (each divided by its length floored at ε), and for every pair of rows
   (n, m) adds up e n m = exp (−max (|xn_n|² + |xn_m|² − 2 xn_n·xn_m) 0) along m; each row sum is divided by 8191, the
   quotients are added and the total divided by 8192. It does so in two grid regions: one normalizes 512 rows per grid
   point and also writes their squared lengths; the other walks an 8 by 8 grid of 1024-row by 1024-column blocks,
   accumulating each row block's partial sums over its 8 column blocks in one column that is zeroed at the first and
   written back after the last. The reference computes the same numbers with whole-array operations.
   Over the extended reals the two agree exactly: a sum over 8192 columns is the sum of its 8 consecutive blocks of 1024
   (only associativity and commutativity of + are used, so no finiteness is needed), a block product against the
   transposed block is the inner product of rows, 0 − a is −a, and a change of float format is the identity.
   The frames: both printed kernels run their two regions and the host operations between and after them to the end
   from any memory; the one array two windows of the second region share is held half and half by them. -/
import proofs.«129088_j10788957848170_1_alg».proof.Defs
import proofs.«129088_j10788957848170_1_alg».proof.Proof.Gen.Kernel
import proofs.«129088_j10788957848170_1_alg».proof.Proof.Gen.KernelIdeal
import proofs.«129088_j10788957848170_1_alg».proof.Proof.Gen.ReferenceIdeal
import proofs.«129088_j10788957848170_1_alg».proof.Proof.Gen.Pre_finite_inputs
import proofs.«129088_j10788957848170_1_alg».proof.Proof.Gen.ReferenceIdeal.Run
import proofs.«129088_j10788957848170_1_alg».proof.Proof.Gen.ReferenceIdeal.Read
import proofs.«129088_j10788957848170_1_alg».proof.Proof.K.Frame
import proofs.«129088_j10788957848170_1_alg».proof.Proof.KI.Frame
import proofs.«129088_j10788957848170_1_alg».proof.Proof.KI.Tail
import proofs.«129088_j10788957848170_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its input as launched. -/
theorem frame_p : Cert.frame_Kernel (hKernel := Cert.Kernel.Gen.facts) (hPre_finite_inputs := Cert.Pre_finite_inputs.Gen.facts) :=
  fun m ρ _ => Cert.Kernel.Gen.frame m ρ

/-- The idealized kernel runs to the end and leaves its input as launched. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference runs to the end and leaves its input as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Rounding the normalized rows to the storage format and reading them back wide is the identity over the
    extended reals: the one rewrite the idealization made. -/
theorem preserves : Cert.preserves_Kernel_KernelIdeal :=
  IdealRules.truncf_extf.statement _ .f32 .bf16

/-- Both idealized programs end with the specification's result of the shared input. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (Cert.KernelIdeal.Val.xIn m c), ?_, ?_⟩
  · exact (θ_run Cert.KernelIdeal.defs _ _).mono (fun r h c => ⟨(h c).1.trans (Cert.KernelIdeal.Val.Y4_v7 m c), (h c).2⟩)
      (Cert.KernelIdeal.Gen.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, Cert.ReferenceIdeal.RefValue.val_main_v24_eq_result, hagree c]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
